-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x5 : Shape := ⟨2, ![100000, 5]⟩
abbrev S2x3200000 : Shape := ⟨2, ![2, 3200000]⟩
abbrev S3200000x1 : Shape := ⟨2, ![3200000, 1]⟩
abbrev S1x4 : Shape := ⟨2, ![1, 4]⟩
abbrev S100000 : Shape := ⟨1, ![100000]⟩
abbrev S64x5 : Shape := ⟨2, ![64, 5]⟩
abbrev S64 : Shape := ⟨1, ![64]⟩
abbrev S4x64 : Shape := ⟨2, ![4, 64]⟩
abbrev S4 : Shape := ⟨1, ![4]⟩
abbrev S_ : Shape := ⟨0, ![]⟩

class Facts : Prop where
  bcast_S_S100000x5 : S_.BroadcastsInDim S100000x5 (![] : Fin 0 → Fin S100000x5.rank)
  reducesTo_S100000x5_S_d0_1 : S100000x5.ReducesTo [0, 1] S_
  h_S_ : 0 < S_.numel
  bcast_S_S3200000x1 : S_.BroadcastsInDim S3200000x1 (![] : Fin 0 → Fin S3200000x1.rank)
  reducesTo_S3200000x1_S_d0_1 : S3200000x1.ReducesTo [0, 1] S_
  bcast_S_S1x4 : S_.BroadcastsInDim S1x4 (![] : Fin 0 → Fin S1x4.rank)
  reducesTo_S1x4_S_d0_1 : S1x4.ReducesTo [0, 1] S_
  bcast_S_S64x5 : S_.BroadcastsInDim S64x5 (![] : Fin 0 → Fin S64x5.rank)
  reducesTo_S64x5_S_d0_1 : S64x5.ReducesTo [0, 1] S_
  bcast_S_S64 : S_.BroadcastsInDim S64 (![] : Fin 0 → Fin S64.rank)
  reducesTo_S64_S_d0 : S64.ReducesTo [0] S_
  bcast_S_S4x64 : S_.BroadcastsInDim S4x64 (![] : Fin 0 → Fin S4x64.rank)
  reducesTo_S4x64_S_d0_1 : S4x64.ReducesTo [0, 1] S_
  bcast_S_S4 : S_.BroadcastsInDim S4 (![] : Fin 0 → Fin S4.rank)
  reducesTo_S4_S_d0 : S4.ReducesTo [0] S_

variable [Facts]

def fn_part1 {F : FTy → Type} [FloatOps F] (main_arg6 : FVec F S64 .f32) (main_arg7 : FVec F S4x64 .f32) (main_arg8 : FVec F S4 .f32) (main_v13 : IVec S_ 1) (main_v16 : IVec S64x5 1) : IVec S_ 1 :=
  let main_c_5 : IVec S_ 1 := constantI S_ 1 1#1
  let main_v17 : IVec S_ 1 := (fun x v => Host.reduce IntOp.andi x v reducesTo_S64x5_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S4x64 .f32 := Host.absf main_arg7
  let main_cst_8 : FVec F S_ .f32 := constant S_ .f32 0x7F800000#32
  let main_v25 : FVec F S4x64 .f32 := broadcastInDim S4x64 ![] bcast_S_S4x64 main_cst_8
  let main_v26 : IVec S4x64 1 := cmpf .olt main_v24 main_v25
  let main_c_9 : IVec S_ 1 := constantI S_ 1 1#1
  let main_v27 : IVec S_ 1 := (fun x v => Host.reduce IntOp.andi x v reducesTo_S4x64_S_d0_1 h_S_) main_v26 main_c_9
  let main_v28 : IVec S_ 1 := andi main_v23 main_v27
  let main_v29 : FVec F S4 .f32 := Host.absf main_arg8
  let main_cst_10 : FVec F S_ .f32 := constant S_ .f32 0x7F800000#32
  let main_v30 : FVec F S4 .f32 := broadcastInDim S4 ![] bcast_S_S4 main_cst_10
  let main_v31 : IVec S4 1 := cmpf .olt main_v29 main_v30
  let main_c_11 : IVec S_ 1 := constantI S_ 1 1#1
  let main_v32 : IVec S_ 1 := (fun x v => Host.reduce IntOp.andi x v reducesTo_S4_S_d0 h_S_) main_v31 main_c_11
  let main_v33 : IVec S_ 1 := andi main_v28 main_v32
  main_v33

def fn {F : FTy → Type} [FloatOps F] (main_arg0 : FVec F S100000x5 .f32) (main_arg1 : IVec S2x3200000 32) (main_arg2 : FVec F S3200000x1 .f32) (main_arg3 : FVec F S1x4 .f32) (main_arg4 : IVec S100000 32) (main_arg5 : FVec F S64x5 .f32) (main_arg6 : FVec F S64 .f32) (main_arg7 : FVec F S4x64 .f32) (main_arg8 : FVec F S4 .f32) : IVec S_ 1 :=
  let main_v0 : FVec F S100000x5 .f32 := Host.absf main_arg0
  let main_cst : FVec F S_ .f32 := constant S_ .f32 0x7F800000#32
  let main_v1 : FVec F S100000x5 .f32 := broadcastInDim S100000x5 ![] bcast_S_S100000x5 main_cst
  let main_v2 : IVec S100000x5 1 := cmpf .olt main_v0 main_v1
  let main_c : IVec S_ 1 := constantI S_ 1 1#1
  let main_v3 : IVec S_ 1 := (fun x v => Host.reduce IntOp.andi x v reducesTo_S100000x5_S_d0_1 h_S_) main_v2 main_c
  let main_v4 : FVec F S3200000x1 .f32 := Host.absf main_arg2
  let main_cst_0 : FVec F S_ .f32 := constant S_ .f32 0x7F800000#32
  let main_v5 : FVec F S3200000x1 .f32 := broadcastInDim S3200000x1 ![] bcast_S_S3200000x1 main_cst_0
  let main_v6 : IVec S3200000x1 1 := cmpf .olt main_v4 main_v5
  let main_c_1 : IVec S_ 1 := constantI S_ 1 1#1
  let main_v7 : IVec S_ 1 := (fun x v => Host.reduce IntOp.andi x v reducesTo_S3200000x1_S_d0_1 h_S_) main_v6 main_c_1
  let main_v8 : IVec S_ 1 := andi main_v3 main_v7
  let main_v9 : FVec F S1x4 .f32 := Host.absf main_arg3
  let main_cst_2 : FVec F S_ .f32 := constant S_ .f32 0x7F800000#32
  let main_v10 : FVec F S1x4 .f32 := broadcastInDim S1x4 ![] bcast_S_S1x4 main_cst_2
  let main_v11 : IVec S1x4 1 := cmpf .olt main_v9 main_v10
  let main_c_3 : IVec S_ 1 := constantI S_ 1 1#1
  let main_v12 : IVec S_ 1 := (fun x v => Host.reduce IntOp.andi x v reducesTo_S1x4_S_d0_1 h_S_) main_v11 main_c_3
  let main_v13 : IVec S_ 1 := andi main_v8 main_v12
  let main_v14 : FVec F S64x5 .f32 := Host.absf main_arg5
  let main_cst_4 : FVec F S_ .f32 := constant S_ .f32 0x7F800000#32
  let main_v15 : FVec F S64x5 .f32 := broadcastInDim S64x5 ![] bcast_S_S64x5 main_cst_4
  let main_v16 : IVec S64x5 1 := cmpf .olt main_v14 main_v15
  fn_part1 (F := F) main_arg6 main_arg7 main_arg8 main_v13 main_v16
-- ==== Kernel.lean ====
abbrev S100000x5 : Shape := ⟨2, ![100000, 5]⟩
abbrev S2x3200000 : Shape := ⟨2, ![2, 3200000]⟩
abbrev S3200000x1 : Shape := ⟨2, ![3200000, 1]⟩
abbrev S1x4 : Shape := ⟨2, ![1, 4]⟩
abbrev S100000 : Shape := ⟨1, ![100000]⟩
abbrev S64x5 : Shape := ⟨2, ![64, 5]⟩
abbrev S64 : Shape := ⟨1, ![64]⟩
abbrev S4x64 : Shape := ⟨2, ![4, 64]⟩
abbrev S4 : Shape := ⟨1, ![4]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3300000x5 : Shape := ⟨2, ![3300000, 5]⟩
abbrev S5x64 : Shape := ⟨2, ![5, 64]⟩
abbrev S100000x64 : Shape := ⟨2, ![100000, 64]⟩
abbrev S10000x5 : Shape := ⟨2, ![10000, 5]⟩
abbrev S10000x64 : Shape := ⟨2, ![10000, 64]⟩
abbrev S1x64 : Shape := ⟨2, ![1, 64]⟩
abbrev S64x4 : Shape := ⟨2, ![64, 4]⟩
abbrev S100000x4 : Shape := ⟨2, ![100000, 4]⟩
abbrev S10000x4 : Shape := ⟨2, ![10000, 4]⟩
abbrev S3300000x4 : Shape := ⟨2, ![3300000, 4]⟩

abbrev nBuf : Space → Nat
  | .hbm => 100
  | .vmem => 12
  | .smem => 0
  | _ => 0

abbrev bufTy : (tb : Table) → Fin (tcTables nBuf tb) → BufTy
  | .hbm, ⟨0, _⟩ => ⟨S100000x5, .f32⟩
  | .hbm, ⟨1, _⟩ => ⟨S2x3200000, .i32⟩
  | .hbm, ⟨2, _⟩ => ⟨S3200000x1, .f32⟩
  | .hbm, ⟨3, _⟩ => ⟨S1x4, .f32⟩
  | .hbm, ⟨4, _⟩ => ⟨S100000, .i32⟩
  | .hbm, ⟨5, _⟩ => ⟨S64x5, .f32⟩
  | .hbm, ⟨6, _⟩ => ⟨S64, .f32⟩
  | .hbm, ⟨7, _⟩ => ⟨S4x64, .f32⟩
  | .hbm, ⟨8, _⟩ => ⟨S4, .f32⟩
  | .hbm, ⟨9, _⟩ => ⟨S100000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S1x3200000, .i32⟩
  | .hbm, ⟨14, _⟩ => ⟨S3200000, .i32⟩
  | .hbm, ⟨15, _⟩ => ⟨S3300000, .i32⟩
  | .hbm, ⟨16, _⟩ => ⟨S3200000, .f32⟩
  | .hbm, ⟨17, _⟩ => ⟨S_, .f32⟩
  | .hbm, ⟨18, _⟩ => ⟨S100000, .f32⟩
  | .hbm, ⟨19, _⟩ => ⟨S3300000, .f32⟩
  | .hbm, ⟨20, _⟩ => ⟨S_, .f32⟩
  | .hbm, ⟨21, _⟩ => ⟨S100000, .f32⟩
  | .hbm, ⟨22, _⟩ => ⟨S3300000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S_, .f32⟩
  | .hbm, ⟨28, _⟩ => ⟨S100000, .f32⟩
  | .hbm, ⟨29, _⟩ => ⟨S100000, .i1⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000, .f32⟩
  | .hbm, ⟨35, _⟩ => ⟨S_, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S_, .i32⟩
  | .hbm, ⟨50, _⟩ => ⟨S3300000, .i32⟩
  | .hbm, ⟨51, _⟩ => ⟨S3300000, .i1⟩
  | .hbm, ⟨52, _⟩ => ⟨S_, .i32⟩
  | .hbm, ⟨53, _⟩ => ⟨S3300000, .i32⟩
  | .hbm, ⟨54, _⟩ => ⟨S3300000, .i32⟩
  | .hbm, ⟨55, _⟩ => ⟨S3300000, .i32⟩
  | .hbm, ⟨56, _⟩ => ⟨S3300000x1, .i32⟩
  | .hbm, ⟨57, _⟩ => ⟨S3300000, .f32⟩
  | .hbm, ⟨58, _⟩ => ⟨S3300000, .f32⟩
  | .hbm, ⟨59, _⟩ => ⟨S_, .i32⟩
  | .hbm, ⟨60, _⟩ => ⟨S3300000, .i32⟩
  | .hbm, ⟨61, _⟩ => ⟨S3300000, .i1⟩
  | .hbm, ⟨62, _⟩ => ⟨S_, .i32⟩
  | .hbm, ⟨63, _⟩ => ⟨S3300000, .i32⟩
  | .hbm, ⟨64, _⟩ => ⟨S3300000, .i32⟩
  | .hbm, ⟨65, _⟩ => ⟨S3300000, .i32⟩
  | .hbm, ⟨66, _⟩ => ⟨S3300000x1, .i32⟩
  | .hbm, ⟨67, _⟩ => ⟨S3300000x5, .f32⟩
  | .hbm, ⟨68, _⟩ => ⟨S3300000x1, .f32⟩
  | .hbm, ⟨69, _⟩ => ⟨S3300000x5, .f32⟩
  | .hbm, ⟨70, _⟩ => ⟨S3300000x5, .f32⟩
  | .hbm, ⟨71, _⟩ => ⟨S_, .f32⟩
  | .hbm, ⟨72, _⟩ => ⟨S100000x5, .f32⟩
  | .hbm, ⟨73, _⟩ => ⟨S3300000x1, .i32⟩
  | .hbm, ⟨74, _⟩ => ⟨S100000x5, .f32⟩
  | .hbm, ⟨75, _⟩ => ⟨S5x64, .f32⟩
  | .hbm, ⟨76, _⟩ => ⟨S100000x64, .f32⟩
  | .hbm, ⟨77, _⟩ => ⟨S_, .f32⟩
  | .hbm, ⟨78, _⟩ => ⟨S4, .f32⟩
  | .hbm, ⟨79, _⟩ => ⟨S64x4, .f32⟩
  | .hbm, ⟨80, _⟩ => ⟨S100000x4, .f32⟩
  | .hbm, ⟨81, _⟩ => ⟨S_, .i32⟩
  | .hbm, ⟨82, _⟩ => ⟨S3300000, .i32⟩
  | .hbm, ⟨83, _⟩ => ⟨S3300000, .i1⟩
  | .hbm, ⟨84, _⟩ => ⟨S_, .i32⟩
  | .hbm, ⟨85, _⟩ => ⟨S3300000, .i32⟩
  | .hbm, ⟨86, _⟩ => ⟨S3300000, .i32⟩
  | .hbm, ⟨87, _⟩ => ⟨S3300000, .i32⟩
  | .hbm, ⟨88, _⟩ => ⟨S3300000x1, .i32⟩
  | .hbm, ⟨89, _⟩ => ⟨S3300000x4, .f32⟩
  | .hbm, ⟨90, _⟩ => ⟨S3300000x1, .f32⟩
  | .hbm, ⟨91, _⟩ => ⟨S3300000x4, .f32⟩
  | .hbm, ⟨92, _⟩ => ⟨S3300000x4, .f32⟩
  | .hbm, ⟨93, _⟩ => ⟨S_, .f32⟩
  | .hbm, ⟨94, _⟩ => ⟨S100000x4, .f32⟩
  | .hbm, ⟨95, _⟩ => ⟨S3300000x1, .i32⟩
  | .hbm, ⟨96, _⟩ => ⟨S100000x4, .f32⟩
  | .hbm, ⟨97, _⟩ => ⟨S1x4, .f32⟩
  | .hbm, ⟨98, _⟩ => ⟨S100000x4, .f32⟩
  | .hbm, ⟨99, _⟩ => ⟨S100000x4, .f32⟩
  | .local _ .vmem, ⟨0, _⟩ => ⟨S10000x5, .f32⟩
  | .local _ .vmem, ⟨1, _⟩ => ⟨S10000x5, .f32⟩
  | .local _ .vmem, ⟨2, _⟩ => ⟨S5x64, .f32⟩
  | .local _ .vmem, ⟨3, _⟩ => ⟨S64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S64x4, .f32⟩
  | .local _ .vmem, ⟨9, _⟩ => ⟨S4, .f32⟩
  | .local _ .vmem, ⟨10, _⟩ => ⟨S10000x4, .f32⟩
  | .local _ .vmem, ⟨11, _⟩ => ⟨S10000x4, .f32⟩
  | _, _ => ⟨S100000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_call1_v0 : Ref sig .tc := ⟨.hbm, 36, rfl⟩
abbrev main_call1_v1 : Ref sig .tc := ⟨.hbm, 37, rfl⟩
abbrev main_v19 : Ref sig .tc := ⟨.hbm, 38, rfl⟩
abbrev main_c : Ref sig .tc := ⟨.hbm, 39, rfl⟩
abbrev main_v20 : Ref sig .tc := ⟨.hbm, 40, rfl⟩
abbrev main_v21 : Ref sig .tc := ⟨.hbm, 41, rfl⟩
abbrev main_c_5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_6 : Ref sig .tc := ⟨.hbm, 49, rfl⟩
abbrev main_v28 : Ref sig .tc := ⟨.hbm, 50, rfl⟩
abbrev main_v29 : Ref sig .tc := ⟨.hbm, 51, rfl⟩
abbrev main_c_7 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_8 : Ref sig .tc := ⟨.hbm, 59, rfl⟩
abbrev main_v36 : Ref sig .tc := ⟨.hbm, 60, rfl⟩
abbrev main_v37 : Ref sig .tc := ⟨.hbm, 61, rfl⟩
abbrev main_c_9 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_10 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_11 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_c_12 : Ref sig .tc := ⟨.hbm, 81, rfl⟩
abbrev main_v54 : Ref sig .tc := ⟨.hbm, 82, rfl⟩
abbrev main_v55 : Ref sig .tc := ⟨.hbm, 83, rfl⟩
abbrev main_c_13 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_14 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x4 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x4 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  shapeCasts_S3200000x1_S3200000 : S3200000x1.ShapeCasts S3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x5_0_1 : S3300000x1.BroadcastsInDim S3300000x5 (![0, 1] : Fin 2 → Fin S3300000x5.rank)
  bcast_S_S100000x5 : S_.BroadcastsInDim S100000x5 (![] : Fin 0 → Fin S100000x5.rank)
  transposes_S64x5_S5x64_1_0 : S64x5.Transposes [1, 0] S5x64
  inb_S10000x5_S10000x5_0_0 : ∀ a, (![0, 0] : Fin 2 → Nat) a + S10000x5.size a ≤ S10000x5.size a
  h_S10000x5 : 0 < S10000x5.numel
  shapeCasts_S10000x5_S10000x5 : S10000x5.ShapeCasts S10000x5
  inb_S5x64_S5x64_0_0 : ∀ a, (![0, 0] : Fin 2 → Nat) a + S5x64.size a ≤ S5x64.size a
  h_S5x64 : 0 < S5x64.numel
  shapeCasts_S5x64_S5x64 : S5x64.ShapeCasts S5x64
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S_S4 : S_.BroadcastsInDim S4 (![] : Fin 0 → Fin S4.rank)
  transposes_S4x64_S64x4_1_0 : S4x64.Transposes [1, 0] S64x4
  shapeCasts_S10000x64_S10000x64 : S10000x64.ShapeCasts S10000x64
  inb_S64x4_S64x4_0_0 : ∀ a, (![0, 0] : Fin 2 → Nat) a + S64x4.size a ≤ S64x4.size a
  h_S64x4 : 0 < S64x4.numel
  shapeCasts_S64x4_S64x4 : S64x4.ShapeCasts S64x4
  inb_S4_S4_0 : ∀ a, (![0] : Fin 1 → Nat) a + S4.size a ≤ S4.size a
  h_S4 : 0 < S4.numel
  shapeCasts_S4_S4 : S4.ShapeCasts S4
  shapeCasts_S4_S1x4 : S4.ShapeCasts S1x4
  broadcasts_S1x4_S10000x4 : S1x4.Broadcasts S10000x4
  inb_S10000x4_S10000x4_0_0 : ∀ a, (![0, 0] : Fin 2 → Nat) a + S10000x4.size a ≤ S10000x4.size a
  h_S10000x4 : 0 < S10000x4.numel
  bcast_S3300000x1_S3300000x4_0_1 : S3300000x1.BroadcastsInDim S3300000x4 (![0, 1] : Fin 2 → Fin S3300000x4.rank)
  bcast_S_S100000x4 : S_.BroadcastsInDim S100000x4 (![] : Fin 0 → Fin S100000x4.rank)
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x5_S3300000x1_S3300000x5_1_0_n_n_0_1_15_wf : GatherDims.WF S100000x5 S3300000x1 S3300000x5 [1] [0] [] [0] [] 1 ![1, 5]
  scatter_S100000x5_S3300000x1_S3300000x5_1_0_0_1_wf : ScatterDims.WF S100000x5 S3300000x1 S3300000x5 [1] [0] [0] 1
  dot_S10000x5_S5x64_S10000x64_1_0_0_1_n_n_wf : DotDims.WF S10000x5 S5x64 S10000x64 [1] [0] [0] [1] [] []
  dot_S10000x64_S64x4_S10000x4_1_0_0_1_n_n_wf : DotDims.WF S10000x64 S64x4 S10000x4 [1] [0] [0] [1] [] []
  gather_S100000x4_S3300000x1_S3300000x4_1_0_n_n_0_1_14_wf : GatherDims.WF S100000x4 S3300000x1 S3300000x4 [1] [0] [] [0] [] 1 ![1, 4]
  scatter_S100000x4_S3300000x1_S3300000x4_1_0_0_1_wf : ScatterDims.WF S100000x4 S3300000x1 S3300000x4 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x5.size a ≤ S100000x5.size a
  hwx0_0 : ∀ i : grid0.Coords, EltTy.bits .f32 = 32 ∨ (Rect.block (s := S100000x5) S10000x5.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x64.size a ≤ S5x64.size a
  hwx0_1 : ∀ i : grid0.Coords, EltTy.bits .f32 = 32 ∨ (Rect.block (s := S5x64) S5x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x4.size a ≤ S64x4.size a
  hwx1_1 : ∀ i : grid1.Coords, EltTy.bits .f32 = 32 ∨ (Rect.block (s := S64x4) S64x4.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4.size a ≤ S4.size a
  hwx1_2 : ∀ i : grid1.Coords, EltTy.bits .f32 = 32 ∨ (Rect.block (s := S4) S4.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x4.size a ≤ S100000x4.size a
  hwx1_3 : ∀ i : grid1.Coords, EltTy.bits .f32 = 32 ∨ (Rect.block (s := S100000x4) S10000x4.size (cc1_transform_3 i) (hinb1_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x5_S3300000x1_S3300000x5_1_0_n_n_0_1_15 : GatherDims S100000x5 S3300000x1 S3300000x5 where
  offsetDims := [1]
  collapsedSliceDims := [0]
  operandBatchingDims := []
  startIndicesBatchingDims := []
  startIndexMap := [0]
  indexVectorDim := 1
  sliceSizes := ![1, 5]
  wf := gather_S100000x5_S3300000x1_S3300000x5_1_0_n_n_0_1_15_wf
def scatter_S100000x5_S3300000x1_S3300000x5_1_0_0_1 : ScatterDims S100000x5 S3300000x1 S3300000x5 where
  updateWindowDims := [1]
  insertedWindowDims := [0]
  scatterDimsToOperandDims := [0]
  indexVectorDim := 1
  wf := scatter_S100000x5_S3300000x1_S3300000x5_1_0_0_1_wf
def dot_S10000x5_S5x64_S10000x64_1_0_0_1_n_n : DotDims S10000x5 S5x64 S10000x64 where
  lhsContracting := [1]
  rhsContracting := [0]
  lhsNonContracting := [0]
  rhsNonContracting := [1]
  lhsBatch := []
  rhsBatch := []
  wf := dot_S10000x5_S5x64_S10000x64_1_0_0_1_n_n_wf
def dot_S10000x64_S64x4_S10000x4_1_0_0_1_n_n : DotDims S10000x64 S64x4 S10000x4 where
  lhsContracting := [1]
  rhsContracting := [0]
  lhsNonContracting := [0]
  rhsNonContracting := [1]
  lhsBatch := []
  rhsBatch := []
  wf := dot_S10000x64_S64x4_S10000x4_1_0_0_1_n_n_wf
def gather_S100000x4_S3300000x1_S3300000x4_1_0_n_n_0_1_14 : GatherDims S100000x4 S3300000x1 S3300000x4 where
  offsetDims := [1]
  collapsedSliceDims := [0]
  operandBatchingDims := []
  startIndicesBatchingDims := []
  startIndexMap := [0]
  indexVectorDim := 1
  sliceSizes := ![1, 4]
  wf := gather_S100000x4_S3300000x1_S3300000x4_1_0_n_n_0_1_14_wf
def scatter_S100000x4_S3300000x1_S3300000x4_1_0_0_1 : ScatterDims S100000x4 S3300000x1 S3300000x4 where
  updateWindowDims := [1]
  insertedWindowDims := [0]
  scatterDimsToOperandDims := [0]
  indexVectorDim := 1
  wf := scatter_S100000x4_S3300000x1_S3300000x4_1_0_0_1_wf

abbrev win0_0 : Pipeline.Window sig grid0 :=
  Pipeline.Window.ofSpec (Memref.whole main_v48) S10000x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v49) S5x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v50) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v50) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v52) S64x4.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51) S4.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v53) S10000x4.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x5 : Shape := ⟨2, ![100000, 5]⟩
abbrev S2x3200000 : Shape := ⟨2, ![2, 3200000]⟩
abbrev S3200000x1 : Shape := ⟨2, ![3200000, 1]⟩
abbrev S1x4 : Shape := ⟨2, ![1, 4]⟩
abbrev S100000 : Shape := ⟨1, ![100000]⟩
abbrev S64x5 : Shape := ⟨2, ![64, 5]⟩
abbrev S64 : Shape := ⟨1, ![64]⟩
abbrev S4x64 : Shape := ⟨2, ![4, 64]⟩
abbrev S4 : Shape := ⟨1, ![4]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S5x64 : Shape := ⟨2, ![5, 64]⟩
abbrev S100000x64 : Shape := ⟨2, ![100000, 64]⟩
abbrev S3300000x64 : Shape := ⟨2, ![3300000, 64]⟩
abbrev S1x64 : Shape := ⟨2, ![1, 64]⟩
abbrev S64x4 : Shape := ⟨2, ![64, 4]⟩
abbrev S100000x4 : Shape := ⟨2, ![100000, 4]⟩
abbrev S3300000x4 : Shape := ⟨2, ![3300000, 4]⟩

abbrev nBuf : Space → Nat
  | .hbm => 143
  | .vmem => 0
  | .smem => 0
  | _ => 0

abbrev hbmTy0_0 (i : Nat) : BufTy := match i % 128 with
  | 0 => ⟨S100000x5, .f32⟩
  | 1 => ⟨S2x3200000, .i32⟩
  | 2 => ⟨S3200000x1, .f32⟩
  | 3 => ⟨S1x4, .f32⟩
  | 4 => ⟨S100000, .i32⟩
  | 5 => ⟨S64x5, .f32⟩
  | 6 => ⟨S64, .f32⟩
  | 7 => ⟨S4x64, .f32⟩
  | 8 => ⟨S4, .f32⟩
  | 9 => ⟨S100000, .i32⟩
  | 10 => ⟨S1x3200000, .i32⟩
  | 11 => ⟨S3200000, .i32⟩
  | 12 => ⟨S3300000, .i32⟩
  | 13 => ⟨S1x3200000, .i32⟩
  | 14 => ⟨S3200000, .i32⟩
  | 15 => ⟨S3300000, .i32⟩
  | 16 => ⟨S3200000, .f32⟩
  | 17 => ⟨S_, .f32⟩
  | 18 => ⟨S100000, .f32⟩
  | 19 => ⟨S3300000, .f32⟩
  | 20 => ⟨S_, .f32⟩
  | 21 => ⟨S100000, .f32⟩
  | 22 => ⟨S3300000x1, .i32⟩
  | 23 => ⟨S100000, .f32⟩
  | 24 => ⟨S_, .f32⟩
  | 25 => ⟨S100000, .f32⟩
  | 26 => ⟨S100000, .i1⟩
  | 27 => ⟨S_, .f32⟩
  | 28 => ⟨S100000, .f32⟩
  | 29 => ⟨S100000, .i1⟩
  | 30 => ⟨S_, .f32⟩
  | 31 => ⟨S_, .f32⟩
  | 32 => ⟨S100000, .f32⟩
  | 33 => ⟨S100000, .f32⟩
  | 34 => ⟨S100000, .f32⟩
  | 35 => ⟨S_, .f32⟩
  | 36 => ⟨S_, .f32⟩
  | 37 => ⟨S100000, .f32⟩
  | 38 => ⟨S100000, .f32⟩
  | 39 => ⟨S_, .i32⟩
  | 40 => ⟨S3300000, .i32⟩
  | 41 => ⟨S3300000, .i1⟩
  | 42 => ⟨S_, .i32⟩
  | 43 => ⟨S3300000, .i32⟩
  | 44 => ⟨S3300000, .i32⟩
  | 45 => ⟨S3300000, .i32⟩
  | 46 => ⟨S3300000x1, .i32⟩
  | 47 => ⟨S3300000, .f32⟩
  | 48 => ⟨S3300000, .f32⟩
  | 49 => ⟨S_, .i32⟩
  | 50 => ⟨S3300000, .i32⟩
  | 51 => ⟨S3300000, .i1⟩
  | 52 => ⟨S_, .i32⟩
  | 53 => ⟨S3300000, .i32⟩
  | 54 => ⟨S3300000, .i32⟩
  | 55 => ⟨S3300000, .i32⟩
  | 56 => ⟨S3300000x1, .i32⟩
  | 57 => ⟨S3300000, .f32⟩
  | 58 => ⟨S3300000, .f32⟩
  | 59 => ⟨S5x64, .f32⟩
  | 60 => ⟨S100000x64, .f32⟩
  | 61 => ⟨S_, .i32⟩
  | 62 => ⟨S3300000, .i32⟩
  | 63 => ⟨S3300000, .i1⟩
  | 64 => ⟨S_, .i32⟩
  | 65 => ⟨S3300000, .i32⟩
  | 66 => ⟨S3300000, .i32⟩
  | 67 => ⟨S3300000, .i32⟩
  | 68 => ⟨S3300000x1, .i32⟩
  | 69 => ⟨S3300000x64, .f32⟩
  | 70 => ⟨S3300000x1, .f32⟩
  | 71 => ⟨S3300000x64, .f32⟩
  | 72 => ⟨S3300000x64, .f32⟩
  | 73 => ⟨S_, .f32⟩
  | 74 => ⟨S100000x64, .f32⟩
  | 75 => ⟨S3300000x1, .i32⟩
  | 76 => ⟨S100000x64, .f32⟩
  | 77 => ⟨S1x64, .f32⟩
  | 78 => ⟨S100000x64, .f32⟩
  | 79 => ⟨S100000x64, .f32⟩
  | 80 => ⟨S_, .f32⟩
  | 81 => ⟨S100000x64, .f32⟩
  | 82 => ⟨S100000x64, .f32⟩
  | 83 => ⟨S_, .f32⟩
  | 84 => ⟨S100000, .f32⟩
  | 85 => ⟨S3300000x1, .i32⟩
  | 86 => ⟨S100000, .f32⟩
  | 87 => ⟨S_, .f32⟩
  | 88 => ⟨S100000, .f32⟩
  | 89 => ⟨S100000, .i1⟩
  | 90 => ⟨S_, .f32⟩
  | 91 => ⟨S100000, .f32⟩
  | 92 => ⟨S100000, .i1⟩
  | 93 => ⟨S_, .f32⟩
  | 94 => ⟨S_, .f32⟩
  | 95 => ⟨S100000, .f32⟩
  | 96 => ⟨S100000, .f32⟩
  | 97 => ⟨S100000, .f32⟩
  | 98 => ⟨S_, .f32⟩
  | 99 => ⟨S_, .f32⟩
  | 100 => ⟨S100000, .f32⟩
  | 101 => ⟨S100000, .f32⟩
  | 102 => ⟨S_, .i32⟩
  | 103 => ⟨S3300000, .i32⟩
  | 104 => ⟨S3300000, .i1⟩
  | 105 => ⟨S_, .i32⟩
  | 106 => ⟨S3300000, .i32⟩
  | 107 => ⟨S3300000, .i32⟩
  | 108 => ⟨S3300000, .i32⟩
  | 109 => ⟨S3300000x1, .i32⟩
  | 110 => ⟨S3300000, .f32⟩
  | 111 => ⟨S3300000, .f32⟩
  | 112 => ⟨S_, .i32⟩
  | 113 => ⟨S3300000, .i32⟩
  | 114 => ⟨S3300000, .i1⟩
  | 115 => ⟨S_, .i32⟩
  | 116 => ⟨S3300000, .i32⟩
  | 117 => ⟨S3300000, .i32⟩
  | 118 => ⟨S3300000, .i32⟩
  | 119 => ⟨S3300000x1, .i32⟩
  | 120 => ⟨S3300000, .f32⟩
  | 121 => ⟨S3300000, .f32⟩
  | 122 => ⟨S64x4, .f32⟩
  | 123 => ⟨S100000x4, .f32⟩
  | 124 => ⟨S_, .i32⟩
  | 125 => ⟨S3300000, .i32⟩
  | 126 => ⟨S3300000, .i1⟩
  | 127 => ⟨S_, .i32⟩
  | _ => ⟨S100000x5, .f32⟩

abbrev hbmTy0_1 (i : Nat) : BufTy := match i % 128 with
  | 0 => ⟨S3300000, .i32⟩
  | 1 => ⟨S3300000, .i32⟩
  | 2 => ⟨S3300000, .i32⟩
  | 3 => ⟨S3300000x1, .i32⟩
  | 4 => ⟨S3300000x4, .f32⟩
  | 5 => ⟨S3300000x1, .f32⟩
  | 6 => ⟨S3300000x4, .f32⟩
  | 7 => ⟨S3300000x4, .f32⟩
  | 8 => ⟨S_, .f32⟩
  | 9 => ⟨S100000x4, .f32⟩
  | 10 => ⟨S3300000x1, .i32⟩
  | 11 => ⟨S100000x4, .f32⟩
  | 12 => ⟨S1x4, .f32⟩
  | 13 => ⟨S100000x4, .f32⟩
  | 14 => ⟨S100000x4, .f32⟩
  | _ => ⟨S100000x5, .f32⟩

abbrev hbmTy (i : Nat) : BufTy := match i / 128 with
  | 0 => hbmTy0_0 i
  | 1 => hbmTy0_1 i
  | _ => ⟨S100000x5, .f32⟩

abbrev bufTy : (tb : Table) → Fin (tcTables nBuf tb) → BufTy
  | .hbm, ⟨i, _⟩ => hbmTy i
  | _, _ => ⟨S100000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_call1_v0 : Ref sig .tc := ⟨.hbm, 36, rfl⟩
abbrev main_call1_v1 : Ref sig .tc := ⟨.hbm, 37, rfl⟩
abbrev main_v19 : Ref sig .tc := ⟨.hbm, 38, rfl⟩
abbrev main_c : Ref sig .tc := ⟨.hbm, 39, rfl⟩
abbrev main_v20 : Ref sig .tc := ⟨.hbm, 40, rfl⟩
abbrev main_v21 : Ref sig .tc := ⟨.hbm, 41, rfl⟩
abbrev main_c_5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_6 : Ref sig .tc := ⟨.hbm, 49, rfl⟩
abbrev main_v28 : Ref sig .tc := ⟨.hbm, 50, rfl⟩
abbrev main_v29 : Ref sig .tc := ⟨.hbm, 51, rfl⟩
abbrev main_c_7 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_c_8 : Ref sig .tc := ⟨.hbm, 61, rfl⟩
abbrev main_v38 : Ref sig .tc := ⟨.hbm, 62, rfl⟩
abbrev main_v39 : Ref sig .tc := ⟨.hbm, 63, rfl⟩
abbrev main_c_9 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_10 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_call2_cst : Ref sig .tc := ⟨.hbm, 80, rfl⟩
abbrev main_call2_v0 : Ref sig .tc := ⟨.hbm, 81, rfl⟩
abbrev main_v54 : Ref sig .tc := ⟨.hbm, 82, rfl⟩
abbrev main_cst_11 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_12 : Ref sig .tc := ⟨.hbm, 87, rfl⟩
abbrev main_v58 : Ref sig .tc := ⟨.hbm, 88, rfl⟩
abbrev main_v59 : Ref sig .tc := ⟨.hbm, 89, rfl⟩
abbrev main_cst_13 : Ref sig .tc := ⟨.hbm, 90, rfl⟩
abbrev main_v60 : Ref sig .tc := ⟨.hbm, 91, rfl⟩
abbrev main_v61 : Ref sig .tc := ⟨.hbm, 92, rfl⟩
abbrev main_cst_14 : Ref sig .tc := ⟨.hbm, 93, rfl⟩
abbrev main_call3_v0 : Ref sig .tc := ⟨.hbm, 94, rfl⟩
abbrev main_call3_v1 : Ref sig .tc := ⟨.hbm, 95, rfl⟩
abbrev main_v62 : Ref sig .tc := ⟨.hbm, 96, rfl⟩
abbrev main_v63 : Ref sig .tc := ⟨.hbm, 97, rfl⟩
abbrev main_cst_15 : Ref sig .tc := ⟨.hbm, 98, rfl⟩
abbrev main_call4_v0 : Ref sig .tc := ⟨.hbm, 99, rfl⟩
abbrev main_call4_v1 : Ref sig .tc := ⟨.hbm, 100, rfl⟩
abbrev main_v64 : Ref sig .tc := ⟨.hbm, 101, rfl⟩
abbrev main_c_16 : Ref sig .tc := ⟨.hbm, 102, rfl⟩
abbrev main_v65 : Ref sig .tc := ⟨.hbm, 103, rfl⟩
abbrev main_v66 : Ref sig .tc := ⟨.hbm, 104, rfl⟩
abbrev main_c_17 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_c_18 : Ref sig .tc := ⟨.hbm, 112, rfl⟩
abbrev main_v73 : Ref sig .tc := ⟨.hbm, 113, rfl⟩
abbrev main_v74 : Ref sig .tc := ⟨.hbm, 114, rfl⟩
abbrev main_c_19 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_c_20 : Ref sig .tc := ⟨.hbm, 124, rfl⟩
abbrev main_v83 : Ref sig .tc := ⟨.hbm, 125, rfl⟩
abbrev main_v84 : Ref sig .tc := ⟨.hbm, 126, rfl⟩
abbrev main_c_21 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_cst_22 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  shapeCasts_S3200000x1_S3200000 : S3200000x1.ShapeCasts S3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  transposes_S64x5_S5x64_1_0 : S64x5.Transposes [1, 0] S5x64
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S4x64_S64x4_1_0 : S4x64.Transposes [1, 0] S64x4
  bcast_S3300000x1_S3300000x4_0_1 : S3300000x1.BroadcastsInDim S3300000x4 (![0, 1] : Fin 2 → Fin S3300000x4.rank)
  bcast_S_S100000x4 : S_.BroadcastsInDim S100000x4 (![] : Fin 0 → Fin S100000x4.rank)
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x5_S5x64_S100000x64_1_0_0_1_n_n_wf : DotDims.WF S100000x5 S5x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x4_S100000x4_1_0_0_1_n_n_wf : DotDims.WF S100000x64 S64x4 S100000x4 [1] [0] [0] [1] [] []
  gather_S100000x4_S3300000x1_S3300000x4_1_0_n_n_0_1_14_wf : GatherDims.WF S100000x4 S3300000x1 S3300000x4 [1] [0] [] [0] [] 1 ![1, 4]
  scatter_S100000x4_S3300000x1_S3300000x4_1_0_0_1_wf : ScatterDims.WF S100000x4 S3300000x1 S3300000x4 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x5_S5x64_S100000x64_1_0_0_1_n_n : DotDims S100000x5 S5x64 S100000x64 where
  lhsContracting := [1]
  rhsContracting := [0]
  lhsNonContracting := [0]
  rhsNonContracting := [1]
  lhsBatch := []
  rhsBatch := []
  wf := dot_S100000x5_S5x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x4_S100000x4_1_0_0_1_n_n : DotDims S100000x64 S64x4 S100000x4 where
  lhsContracting := [1]
  rhsContracting := [0]
  lhsNonContracting := [0]
  rhsNonContracting := [1]
  lhsBatch := []
  rhsBatch := []
  wf := dot_S100000x64_S64x4_S100000x4_1_0_0_1_n_n_wf
def gather_S100000x4_S3300000x1_S3300000x4_1_0_n_n_0_1_14 : GatherDims S100000x4 S3300000x1 S3300000x4 where
  offsetDims := [1]
  collapsedSliceDims := [0]
  operandBatchingDims := []
  startIndicesBatchingDims := []
  startIndexMap := [0]
  indexVectorDim := 1
  sliceSizes := ![1, 4]
  wf := gather_S100000x4_S3300000x1_S3300000x4_1_0_n_n_0_1_14_wf
def scatter_S100000x4_S3300000x1_S3300000x4_1_0_0_1 : ScatterDims S100000x4 S3300000x1 S3300000x4 where
  updateWindowDims := [1]
  insertedWindowDims := [0]
  scatterDimsToOperandDims := [0]
  indexVectorDim := 1
  wf := scatter_S100000x4_S3300000x1_S3300000x4_1_0_0_1_wf

class Facts : Prop extends Facts₀ where

variable [Facts]
-- ==== Proof.Spec.lean ====
/-
  What the two dense layers compute, as whole-array functions over the extended reals.

  `lin0 X Wt b` is `max (X · Wt + b) 0` on `[100000, 64]`: entry `(r, c)` is the maximum of zero and the sum over
  `k < 5` of `X (r, k) · Wt (k, c)`, plus `b c`. `lin1 H Wt b` is `H · Wt + b` on `[100000, 4]`: entry `(r, c)` is the sum
  over `k < 64` of `H (r, k) · Wt (k, c)`, plus `b c`. Both are stated entry by entry at explicit coordinates.
-/
import Idealize.ShloMosaic.PureOps.Ideal
import Idealize.ShloMosaic.Lib.ValueIdx

noncomputable section

namespace Cert.Spec

open Idealize.ShloMosaic Idealize.ShloMosaic.ValueIdx
open scoped BigOperators

/-- Entry `(r, c)` of the first layer: `max (∑ k, X (r, k) · Wt (k, c) + b c) 0`. -/
def lin0At (X : (⟨2, ![100000, 5]⟩ : Shape).Idx → EReal) (Wt : (⟨2, ![5, 64]⟩ : Shape).Idx → EReal)
    (b : (⟨1, ![64]⟩ : Shape).Idx → EReal) (r : Fin 100000) (c : Fin 64) : EReal :=
  max ((∑ k : Fin 5, X (ix2 r k) * Wt (ix2 k c)) + b (ix1 c)) 0

/-- The first layer as one array. -/
def lin0 (X : (⟨2, ![100000, 5]⟩ : Shape).Idx → EReal) (Wt : (⟨2, ![5, 64]⟩ : Shape).Idx → EReal)
    (b : (⟨1, ![64]⟩ : Shape).Idx → EReal) : (⟨2, ![100000, 64]⟩ : Shape).Idx → EReal :=
  fun j => lin0At X Wt b (j 0) (j 1)

theorem lin0_ix2 (X : (⟨2, ![100000, 5]⟩ : Shape).Idx → EReal) (Wt : (⟨2, ![5, 64]⟩ : Shape).Idx → EReal)
    (b : (⟨1, ![64]⟩ : Shape).Idx → EReal) (r : Fin 100000) (c : Fin 64) :
    lin0 X Wt b (ix2 r c) = lin0At X Wt b r c := rfl

/-- Entry `(r, c)` of the second layer: `∑ k, H (r, k) · Wt (k, c) + b c`. -/
def lin1At (H : (⟨2, ![100000, 64]⟩ : Shape).Idx → EReal) (Wt : (⟨2, ![64, 4]⟩ : Shape).Idx → EReal)
    (b : (⟨1, ![4]⟩ : Shape).Idx → EReal) (r : Fin 100000) (c : Fin 4) : EReal :=
  (∑ k : Fin 64, H (ix2 r k) * Wt (ix2 k c)) + b (ix1 c)

/-- The second layer as one array. -/
def lin1 (H : (⟨2, ![100000, 64]⟩ : Shape).Idx → EReal) (Wt : (⟨2, ![64, 4]⟩ : Shape).Idx → EReal)
    (b : (⟨1, ![4]⟩ : Shape).Idx → EReal) : (⟨2, ![100000, 4]⟩ : Shape).Idx → EReal :=
  fun j => lin1At H Wt b (j 0) (j 1)

theorem lin1_ix2 (H : (⟨2, ![100000, 64]⟩ : Shape).Idx → EReal) (Wt : (⟨2, ![64, 4]⟩ : Shape).Idx → EReal)
    (b : (⟨1, ![4]⟩ : Shape).Idx → EReal) (r : Fin 100000) (c : Fin 4) :
    lin1 H Wt b (ix2 r c) = lin1At H Wt b r c := rfl

end Cert.Spec

end
-- ==== Proof.KSpec.lean ====
/-
  The host side of the kernel program, named. The program appends one self-loop per node to the edge list, so every
  list below has `3300000 = 3200000 + 100000` entries. `wrapIdx v` turns a list of node numbers into gather indices: a
  negative number is first increased by the node count `100000`, then the list is made a column. `colIdx v` is the
  list as a column, as a scatter takes it. `coeff d s t w` is the edge coefficient `d[s] · w · d[t]` of the factors
  `d` of the two end nodes and the edge weight `w`. `agg x s t n` accumulates, into node `t e`, the feature row of
  node `s e` scaled by `n e`, from zero: the aggregate of the first layer. `out h s t n b` does the same with the
  four-column rows of `h` and adds the bias `b` to every row. `kres` puts them together with the two dense layers:
  the program's result.
-/
import proofs.«408969_j82918638616893_3_alg».proof.Proof.Gen.KernelIdeal
import proofs.«408969_j82918638616893_3_alg».proof.Proof.Spec
import Idealize.ShloMosaic.PureOps.Ideal

noncomputable section

namespace Cert.KernelIdeal.KSpec

open Cert.KernelIdeal Cert.KernelIdeal.Facts₀ Cert.KernelIdeal.Facts Idealize.ShloMosaic

/-- Node numbers as gather indices: negatives wrapped by the node count, then one column. -/
def wrapIdx (v : IVec S3300000 32) : IVec S3300000x1 32 :=
  broadcastInDim S3300000x1 ![0] bcast_S3300000_S3300000x1_0
    (select
      (cmpi CmpIPredicate.slt v (broadcastInDim S3300000 ![] bcast_S_S3300000 (constantI S_ 32 0#32)))
      (addi v (broadcastInDim S3300000 ![] bcast_S_S3300000 (constantI S_ 32 100000#32)))
      v)

/-- Node numbers as one column. -/
def colIdx (v : IVec S3300000 32) : IVec S3300000x1 32 :=
  broadcastInDim S3300000x1 ![0] bcast_S3300000_S3300000x1_0 v

/-- The edge coefficients: the factor of the source node, times the edge weight, times the factor of the target node. -/
def coeff (d : FVec Ideal S100000 .f32) (s t : IVec S3300000 32) (w : FVec Ideal S3300000 .f32) :
    FVec Ideal S3300000 .f32 :=
  mulf
    (mulf (Host.gather gather_S100000_S3300000x1_S3300000_n_0_n_n_0_1_1 d (wrapIdx s)) w)
    (Host.gather gather_S100000_S3300000x1_S3300000_n_0_n_n_0_1_1 d (wrapIdx t))

/-- The coefficients copied along five columns. -/
def cols5 (n : FVec Ideal S3300000 .f32) : FVec Ideal S3300000x5 .f32 :=
  broadcastInDim S3300000x5 ![0, 1] bcast_S3300000x1_S3300000x5_0_1
    (broadcastInDim S3300000x1 ![0] bcast_S3300000_S3300000x1_0 n)

/-- The coefficients copied along four columns. -/
def cols4 (n : FVec Ideal S3300000 .f32) : FVec Ideal S3300000x4 .f32 :=
  broadcastInDim S3300000x4 ![0, 1] bcast_S3300000x1_S3300000x4_0_1
    (broadcastInDim S3300000x1 ![0] bcast_S3300000_S3300000x1_0 n)

/-- The first layer's aggregate: into node `t e`, the features of node `s e` scaled by `n e`. -/
def agg (x : FVec Ideal S100000x5 .f32) (s t : IVec S3300000 32) (n : FVec Ideal S3300000 .f32) :
    FVec Ideal S100000x5 .f32 :=
  Host.scatterAdd scatter_S100000x5_S3300000x1_S3300000x5_1_0_0_1
    (broadcastInDim S100000x5 ![] bcast_S_S100000x5 (constant S_ FTy.f32 0#32))
    (colIdx t)
    (mulf (Host.gather gather_S100000x5_S3300000x1_S3300000x5_1_0_n_n_0_1_15 x (wrapIdx s)) (cols5 n))

/-- The bias of the second dense layer: zero. -/
def zeroBias : FVec Ideal S4 .f32 := broadcastInDim S4 ![] bcast_S_S4 (constant S_ FTy.f32 0#32)

/-- The result: into node `t e`, the row of `h` of node `s e` scaled by `n e`; then the bias on every row. -/
def out (h : FVec Ideal S100000x4 .f32) (s t : IVec S3300000 32) (n : FVec Ideal S3300000 .f32)
    (b : FVec Ideal S4 .f32) : FVec Ideal S100000x4 .f32 :=
  addf
    (Host.scatterAdd scatter_S100000x4_S3300000x1_S3300000x4_1_0_0_1
      (broadcastInDim S100000x4 ![] bcast_S_S100000x4 (constant S_ FTy.f32 0#32))
      (colIdx t)
      (mulf (Host.gather gather_S100000x4_S3300000x1_S3300000x4_1_0_n_n_0_1_14 h (wrapIdx s)) (cols4 n)))
    (broadcastInDim S100000x4 ![0, 1] bcast_S1x4_S100000x4_0_1 (broadcastInDim S1x4 ![1] bcast_S4_S1x4_1 b))

/-- The kernel program's result array as one function: the edge coefficients from each node's factor `d` and the edge
    weights `w`; the first layer of the aggregated features; the second layer of that, with zero bias; gathered,
    scaled, accumulated over the edges, and the bias added. -/
def kres (a0 : FVec Ideal S100000x5 .f32) (s t : IVec S3300000 32) (d : FVec Ideal S100000 .f32) (w : FVec Ideal S3300000 .f32)
    (a5 : FVec Ideal S64x5 .f32) (a6 : FVec Ideal S64 .f32) (a7 : FVec Ideal S4x64 .f32) (a8 : FVec Ideal S4 .f32) :
    FVec Ideal S100000x4 .f32 :=
  out
    (Cert.Spec.lin1
      (Cert.Spec.lin0 (agg a0 s t (coeff d s t w)) (transpose S5x64 [1, 0] a5 transposes_S64x5_S5x64_1_0) a6)
      (transpose S64x4 [1, 0] a7 transposes_S4x64_S64x4_1_0) zeroBias)
    s t (coeff d s t w) a8

end Cert.KernelIdeal.KSpec

end
-- ==== Proof.Region0.lean ====
/-
  Region 0's output array. Each grid point `t` of the first dense layer reads rows `[10000 t, 10000 (t + 1))` of the
  aggregated features, the whole `5 × 64` weight and the whole bias, and writes back
  `max (block · weight + bias) 0` as rows `[10000 t, 10000 (t + 1))` of the result: the block of ONE whole-array
  function (`Cert.Spec.lin0`) of the arrays the region finds. The ten blocks tile the result, so after the region
  the result array is that function.
-/
import proofs.«408969_j82918638616893_3_alg».proof.Proof.Gen.KernelIdeal.Frame
import proofs.«408969_j82918638616893_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx
open scoped BigOperators

/-! ## The payload at an entry -/

/-- The product's left operand index at output entry `i` and contraction index `q`: its row is `i`'s row (axis 0 of the
    left operand is the free axis) … -/
theorem matmul_lhs_row (i : S10000x64.Idx) (q : dot_S10000x5_S5x64_S10000x64_1_0_0_1_n_n.contr.Idx) :
    (dot_S10000x5_S5x64_S10000x64_1_0_0_1_n_n.lhsIdx i q 0).val = (i 0).val := by
  unfold DotDims.lhsIdx
  rw [dif_neg (show ¬(0 : Fin S10000x5.rank) ∈ dot_S10000x5_S5x64_S10000x64_1_0_0_1_n_n.lhsBatch by decide), dif_pos (show (0 : Fin S10000x5.rank) ∈ dot_S10000x5_S5x64_S10000x64_1_0_0_1_n_n.lhsNonContracting by decide)]
  rfl
/-- … and its column is the contraction index (axis 1 of the left operand is the one contracted axis). -/
theorem matmul_lhs_col (i : S10000x64.Idx) (q : dot_S10000x5_S5x64_S10000x64_1_0_0_1_n_n.contr.Idx) :
    (dot_S10000x5_S5x64_S10000x64_1_0_0_1_n_n.lhsIdx i q 1).val = (q ⟨0, by decide⟩).val :=
  dot_S10000x5_S5x64_S10000x64_1_0_0_1_n_n.lhsIdx_val_of_single rfl i q
/-- The right operand index: its row is the contraction index (axis 0 of the right operand is contracted) … -/
theorem matmul_rhs_row (i : S10000x64.Idx) (q : dot_S10000x5_S5x64_S10000x64_1_0_0_1_n_n.contr.Idx) :
    (dot_S10000x5_S5x64_S10000x64_1_0_0_1_n_n.rhsIdx i q 0).val = (q ⟨0, by decide⟩).val :=
  dot_S10000x5_S5x64_S10000x64_1_0_0_1_n_n.rhsIdx_val_of_single rfl i q
/-- … and its column is `i`'s column (axis 1 of the right operand is the free axis). -/
theorem matmul_rhs_col (i : S10000x64.Idx) (q : dot_S10000x5_S5x64_S10000x64_1_0_0_1_n_n.contr.Idx) :
    (dot_S10000x5_S5x64_S10000x64_1_0_0_1_n_n.rhsIdx i q 1).val = (i 1).val := by
  unfold DotDims.rhsIdx
  rw [dif_neg (show ¬(1 : Fin S5x64.rank) ∈ dot_S10000x5_S5x64_S10000x64_1_0_0_1_n_n.rhsBatch by decide), dif_pos (show (1 : Fin S5x64.rank) ∈ dot_S10000x5_S5x64_S10000x64_1_0_0_1_n_n.rhsNonContracting by decide)]
  rfl

/-- The `[10000, 5] · [5, 64]` product accumulated onto zero, at entry `(p, q)`: `∑ k < 5, x0 (p, k) · x1 (k, q)`. The
    contraction's index set is one axis of extent 5, so its sum re-indexes over `k < 5`, and the operand indices at
    `k` are `(p, k)` and `(k, q)` coordinate by coordinate. -/
theorem matmul_entry (x0 : FVec Ideal S10000x5 .f32) (x1 : FVec Ideal S5x64 .f32) (p : Fin 10000) (q : Fin 64) :
    matmul dot_S10000x5_S5x64_S10000x64_1_0_0_1_n_n none x0 x1 (constant (F := Ideal) S10000x64 .f32 0x00000000#32) (ix2 p q)
      = ∑ k : Fin 5, x0 (ix2 p k) * x1 (ix2 k q) := by
  simp only [matmul]
  rw [Ideal.matmul_constant_zero_apply, ← Equiv.sum_comp (ValueIdx.contrEquiv1 dot_S10000x5_S5x64_S10000x64_1_0_0_1_n_n 5 rfl rfl).symm]
  refine Finset.sum_congr rfl fun k _ => ?_
  have hk := ValueIdx.contrEquiv1_symm_val dot_S10000x5_S5x64_S10000x64_1_0_0_1_n_n 5 rfl rfl k
  have el : dot_S10000x5_S5x64_S10000x64_1_0_0_1_n_n.lhsIdx (ix2 p q) ((ValueIdx.contrEquiv1 dot_S10000x5_S5x64_S10000x64_1_0_0_1_n_n 5 rfl rfl).symm k) = ix2 p k := funext fun a => Fin.ext (by
    match a with
    | ⟨0, _⟩ => exact matmul_lhs_row _ _
    | ⟨1, _⟩ => exact (matmul_lhs_col _ _).trans hk)
  have er : dot_S10000x5_S5x64_S10000x64_1_0_0_1_n_n.rhsIdx (ix2 p q) ((ValueIdx.contrEquiv1 dot_S10000x5_S5x64_S10000x64_1_0_0_1_n_n 5 rfl rfl).symm k) = ix2 k q := funext fun a => Fin.ext (by
    match a with
    | ⟨0, _⟩ => exact (matmul_rhs_row _ _).trans hk
    | ⟨1, _⟩ => exact matmul_rhs_col _ _)
  rw [el, er]

/-- The bias viewed as one row `[1, 64]` and repeated down the `10000` rows reads, at entry `(p, q)`, the bias at `q`:
    the repeated row is row `0`, and entry `(0, q)` of the one-row view is entry `q` of the vector. -/
theorem bias_entry (x2 : FVec Ideal S64 .f32) (p : Fin 10000) (q : Fin 64) :
    broadcastTo S10000x64 (shapeCast S1x64 x2 shapeCasts_S64_S1x64) broadcasts_S1x64_S10000x64 (ix2 p q) = x2 (ix1 q) := by
  refine (broadcastTo_apply _ broadcasts_S1x64_S10000x64 (ix2 p q) (ix2 (0 : Fin 1) q) (fun a => ?_)).trans ?_
  · match a with
    | ⟨0, _⟩ => rfl
    | ⟨1, _⟩ => rfl
  · refine (shapeCast_addUnit_apply ![64] x2 shapeCasts_S64_S1x64 (ix2 (0 : Fin 1) q)).trans ?_
    refine congrArg x2 (funext fun a => ?_)
    match a with
    | ⟨0, _⟩ => rfl

/-- The body's stored value at entry `(p, q)` of its block: `max (∑ k < 5, x0 (p, k) · x1 (k, q) + x2 q) 0`. The casts to
    the same shape are identities, the product and the bias are read as above, the sum and the maximum are entrywise, and
    the word of all zero bits is the real number zero. -/
theorem payload_entry (x0 : Vec Ideal S10000x5 .f32) (x1 : Vec Ideal S5x64 .f32) (x2 : Vec Ideal S64 .f32) (p : Fin 10000) (q : Fin 64) :
    k0_pay1 (F := Ideal) x0 x1 x2 (ix2 p q) = max ((∑ k : Fin 5, x0 (ix2 p k) * x1 (ix2 k q)) + x2 (ix1 q)) 0 := by
  unfold k0_pay1
  rw [maximumf_apply, addf_apply, broadcast_apply, shapeCast_self, shapeCast_self, matmul_entry, bias_entry]
  exact congrArg (max _) Ideal.ofBits_zero_f32

/-- If the three blocks agree with three arrays `X`, `Wt`, `b` where the entry `(p, q)` reads them — row `p` of the first
    block is row `r` of `X`, column `q` of the second is column `q` of `Wt`, entry `q` of the third is entry `q` of `b` —
    then the stored value at `(p, q)` is entry `(r, q)` of the first layer of `X`, `Wt`, `b`. -/
theorem entry_of_blocks (X : S100000x5.Idx → EReal) (Wt : S5x64.Idx → EReal) (b : S64.Idx → EReal)
    (x0 : Vec Ideal S10000x5 .f32) (x1 : Vec Ideal S5x64 .f32) (x2 : Vec Ideal S64 .f32)
    (p : Fin 10000) (q : Fin 64) (r : Fin 100000)
    (h0 : ∀ k : Fin 5, x0 (ix2 p k) = X (ix2 r k))
    (h1 : ∀ k : Fin 5, x1 (ix2 k q) = Wt (ix2 k q))
    (h2 : x2 (ix1 q) = b (ix1 q)) :
    k0_pay1 (F := Ideal) x0 x1 x2 (ix2 p q) = Cert.Spec.lin0 X Wt b (ix2 r q) := by
  rw [payload_entry, Cert.Spec.lin0_ix2]
  unfold Cert.Spec.lin0At
  rw [h2, Finset.sum_congr rfl (fun k _ => by rw [h0 k, h1 k])]

/-! ## The blocks the body reads and writes, at a point -/

variable (V : (c : Dev nD) → (b : Ref sig .tc) → Buf (Elt Ideal) ((c : Thread nD τ).loc b))

/-- The zero offsets of a rank-2 access, as the constant function. -/
theorem zero_offsets2 : (![0, 0] : Fin 2 → Nat) = fun _ => 0 := funext fun a => by
  match a with
  | ⟨0, _⟩ => rfl
  | ⟨1, _⟩ => rfl
/-- The zero offset of a rank-1 access, as the constant function. -/
theorem zero_offsets1 : (![0] : Fin 1 → Nat) = fun _ => 0 := funext fun a => by
  match a with
  | ⟨0, _⟩ => rfl

/-- The block indices at point `t` of the ten: the feature rows and the result rows are block `t` of their arrays on
    the row axis and block `0` on the column axis; the weight and the bias are block `0` on every axis (they are whole). -/
theorem block_indices : ∀ t : Fin cfg0.N, win0_0.index t (0 : Fin 2) = t.val
    ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- Row `p` of the feature block at point `t` is row `10000 t + p` of the feature array. -/
theorem rows_block_entry (c : Dev nD) (t : Fin cfg0.N) (p : Fin 10000) (k : Fin 5) (r : Fin 100000)
    (hr : r.val = t.val * 10000 + p.val) :
    (iblk0 V c 0 t : Vec Ideal S10000x5 .f32) (ix2 p k) = (V c main_v48 : S100000x5.Idx → EReal) (ix2 r k) := by
  obtain ⟨e0, e1, -, -, -, -, -⟩ := block_indices t
  unfold iblk0
  rw [View.read_apply]
  show V c main_v48 _ = V c main_v48 _
  congr 1
  funext a
  apply Fin.ext
  match a with
  | ⟨0, _⟩ => show win0_0.index t (0 : Fin 2) * 10000 + 1 * p.val = r.val; omega
  | ⟨1, _⟩ => show win0_0.index t (1 : Fin 2) * 5 + 1 * k.val = k.val; omega

/-- The weight block at every point is the weight array. -/
theorem weight_block_entry (c : Dev nD) (t : Fin cfg0.N) (k : Fin 5) (q : Fin 64) :
    (iblk0 V c 1 t : Vec Ideal S5x64 .f32) (ix2 k q) = (V c main_v49 : S5x64.Idx → EReal) (ix2 k q) := by
  obtain ⟨-, -, e2, e3, -, -, -⟩ := block_indices t
  unfold iblk0
  rw [View.read_apply]
  show V c main_v49 _ = V c main_v49 _
  congr 1
  funext a
  apply Fin.ext
  match a with
  | ⟨0, _⟩ => show win0_1.index t (0 : Fin 2) * 5 + 1 * k.val = k.val; omega
  | ⟨1, _⟩ => show win0_1.index t (1 : Fin 2) * 64 + 1 * q.val = q.val; omega

/-- The bias block at every point is the bias array. -/
theorem bias_block_entry (c : Dev nD) (t : Fin cfg0.N) (q : Fin 64) :
    (iblk0 V c 2 t : Vec Ideal S64 .f32) (ix1 q) = (V c main_arg6 : S64.Idx → EReal) (ix1 q) := by
  obtain ⟨-, -, -, -, e4, -, -⟩ := block_indices t
  unfold iblk0
  rw [View.read_apply]
  show V c main_arg6 _ = V c main_arg6 _
  congr 1
  funext a
  apply Fin.ext
  match a with
  | ⟨0, _⟩ => show win0_2.index t (0 : Fin 1) * 64 + 1 * q.val = q.val; omega

/-- What point `t` writes back is block `t` of the first layer of the arrays the region finds: the body's one store
    covers its whole buffer, its loads read the three whole input blocks, and entry `(p, q)` of the stored value is
    entry `(10000 t + p, q)` of the layer, which is where the result's block `t` puts it. -/
theorem flushed_eq (c : Dev nD) (t : Fin cfg0.N) :
    (dat0 (F := Ideal) V c).flushed 3 t = ((cfg0.win 3).blk t).view.read (Elt Ideal) (Cert.Spec.lin0 (V c main_v48) (V c main_v49) (V c main_arg6)) := by
  show (cfg0.win 3).cut (grid0.coords t) ((dat0 V c).after 3 t) = _
  rw [after0_3]
  unfold out0_3
  rw [View.canon_unit_zero zero_offsets2]
  simp only [View.ld_unit_zero (S := S10000x5) zero_offsets2, View.ld_unit_zero (S := S5x64) zero_offsets2, View.ld_unit_zero (S := S64) zero_offsets1]
  obtain ⟨-, -, -, -, -, e5, e6⟩ := block_indices t
  have ht : t.val < 10 := t.isLt
  refine funext fun (j : S10000x64.Idx) => ?_
  obtain ⟨p, q, rfl⟩ : ∃ (p : Fin 10000) (q : Fin 64), j = ix2 p q := ⟨j 0, j 1, eq_ix2 j⟩
  show k0_pay1 (iblk0 V c 0 t) (iblk0 V c 1 t) (iblk0 V c 2 t) (ix2 p q)
    = Cert.Spec.lin0 (V c main_v48) (V c main_v49) (V c main_arg6) (((cfg0.win 3).blk t).view.emb (ix2 p q))
  refine (entry_of_blocks _ _ _ _ _ _ p q ⟨t.val * 10000 + p.val, by have := p.isLt; omega⟩
    (fun k => rows_block_entry V c t p k _ rfl) (fun k => weight_block_entry V c t k q) (bias_block_entry V c t q)).trans (congrArg _ ?_)
  funext a
  apply Fin.ext
  match a with
  | ⟨0, _⟩ => show t.val * 10000 + p.val = win0_3.index t (0 : Fin 2) * 10000 + 1 * p.val; omega
  | ⟨1, _⟩ => show q.val = win0_3.index t (1 : Fin 2) * 64 + 1 * q.val; omega

/-! ## From the blocks to the array -/

/-- An index of the result array is in point `t`'s block iff each coordinate is in the block's range on its axis. -/
theorem mem_block (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v50).slice (win0_3.rect t)).set ↔ _
  rw [View.set_slice_whole, Rect.mem_set_unit]
  exact Iff.rfl

/-- The ten blocks cover the result: entry `(r, c)` is in the block of point `r / 10000`, and every point writes back. -/
theorem blocks_cover (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ : ∃ t : Fin cfg0.N, t.val = (i 0).val / 10000 := ⟨⟨(i 0).val / 10000, by show _ < 10; omega⟩, rfl⟩
  obtain ⟨-, -, -, -, -, e5, e6⟩ := block_indices t
  refine ⟨t, flush0_3 t, ?_⟩
  rw [mem_block]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 64 ≤ (i 1).val ∧ (i 1).val < win0_3.index t (1 : Fin 2) * 64 + 64; omega

/-- After region 0 its result array is the first layer of the arrays the region finds. -/
theorem arr0 (c : Dev nD) :
    (dat0 (F := Ideal) V c).arrAt 3 cfg0.N = Cert.Spec.lin0 (V c main_v48) (V c main_v49) (V c main_arg6) :=
  (dat0 (F := Ideal) V c).arrAt_eq_of_cover 3 (Cert.Spec.lin0 (V c main_v48) (V c main_v49) (V c main_arg6))
    (fun t _ => flushed_eq V c t) blocks_cover

end Cert.KernelIdeal.Region0

end
-- ==== Proof.Region1.lean ====
/-
  Region 1's output array. Each grid point `t` of the second dense layer reads rows `[10000 t, 10000 (t + 1))` of the
  hidden features, the whole `64 × 4` weight and the whole bias, and writes back `block · weight + bias` as rows
  `[10000 t, 10000 (t + 1))` of the result: the block of ONE whole-array function (`Cert.Spec.lin1`) of the arrays the
  region finds. The ten blocks tile the result, so after the region the result array is that function.
-/
import proofs.«408969_j82918638616893_3_alg».proof.Proof.Gen.KernelIdeal.Frame
import proofs.«408969_j82918638616893_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx
open scoped BigOperators

/-! ## The payload at an entry -/

/-- The product's left operand index at output entry `i` and contraction index `q`: its row is `i`'s row (axis 0 of the
    left operand is the free axis) … -/
theorem matmul_lhs_row (i : S10000x4.Idx) (q : dot_S10000x64_S64x4_S10000x4_1_0_0_1_n_n.contr.Idx) :
    (dot_S10000x64_S64x4_S10000x4_1_0_0_1_n_n.lhsIdx i q 0).val = (i 0).val := by
  unfold DotDims.lhsIdx
  rw [dif_neg (show ¬(0 : Fin S10000x64.rank) ∈ dot_S10000x64_S64x4_S10000x4_1_0_0_1_n_n.lhsBatch by decide), dif_pos (show (0 : Fin S10000x64.rank) ∈ dot_S10000x64_S64x4_S10000x4_1_0_0_1_n_n.lhsNonContracting by decide)]
  rfl
/-- … and its column is the contraction index (axis 1 of the left operand is the one contracted axis). -/
theorem matmul_lhs_col (i : S10000x4.Idx) (q : dot_S10000x64_S64x4_S10000x4_1_0_0_1_n_n.contr.Idx) :
    (dot_S10000x64_S64x4_S10000x4_1_0_0_1_n_n.lhsIdx i q 1).val = (q ⟨0, by decide⟩).val :=
  dot_S10000x64_S64x4_S10000x4_1_0_0_1_n_n.lhsIdx_val_of_single rfl i q
/-- The right operand index: its row is the contraction index (axis 0 of the right operand is contracted) … -/
theorem matmul_rhs_row (i : S10000x4.Idx) (q : dot_S10000x64_S64x4_S10000x4_1_0_0_1_n_n.contr.Idx) :
    (dot_S10000x64_S64x4_S10000x4_1_0_0_1_n_n.rhsIdx i q 0).val = (q ⟨0, by decide⟩).val :=
  dot_S10000x64_S64x4_S10000x4_1_0_0_1_n_n.rhsIdx_val_of_single rfl i q
/-- … and its column is `i`'s column (axis 1 of the right operand is the free axis). -/
theorem matmul_rhs_col (i : S10000x4.Idx) (q : dot_S10000x64_S64x4_S10000x4_1_0_0_1_n_n.contr.Idx) :
    (dot_S10000x64_S64x4_S10000x4_1_0_0_1_n_n.rhsIdx i q 1).val = (i 1).val := by
  unfold DotDims.rhsIdx
  rw [dif_neg (show ¬(1 : Fin S64x4.rank) ∈ dot_S10000x64_S64x4_S10000x4_1_0_0_1_n_n.rhsBatch by decide), dif_pos (show (1 : Fin S64x4.rank) ∈ dot_S10000x64_S64x4_S10000x4_1_0_0_1_n_n.rhsNonContracting by decide)]
  rfl

/-- The `[10000, 64] · [64, 4]` product accumulated onto zero, at entry `(p, q)`: `∑ k < 64, x0 (p, k) · x1 (k, q)`. The
    contraction's index set is one axis of extent 64, so its sum re-indexes over `k < 64`, and the operand indices at
    `k` are `(p, k)` and `(k, q)` coordinate by coordinate. -/
theorem matmul_entry (x0 : FVec Ideal S10000x64 .f32) (x1 : FVec Ideal S64x4 .f32) (p : Fin 10000) (q : Fin 4) :
    matmul dot_S10000x64_S64x4_S10000x4_1_0_0_1_n_n none x0 x1 (constant (F := Ideal) S10000x4 .f32 0x00000000#32) (ix2 p q)
      = ∑ k : Fin 64, x0 (ix2 p k) * x1 (ix2 k q) := by
  simp only [matmul]
  rw [Ideal.matmul_constant_zero_apply, ← Equiv.sum_comp (ValueIdx.contrEquiv1 dot_S10000x64_S64x4_S10000x4_1_0_0_1_n_n 64 rfl rfl).symm]
  refine Finset.sum_congr rfl fun k _ => ?_
  have hk := ValueIdx.contrEquiv1_symm_val dot_S10000x64_S64x4_S10000x4_1_0_0_1_n_n 64 rfl rfl k
  have el : dot_S10000x64_S64x4_S10000x4_1_0_0_1_n_n.lhsIdx (ix2 p q) ((ValueIdx.contrEquiv1 dot_S10000x64_S64x4_S10000x4_1_0_0_1_n_n 64 rfl rfl).symm k) = ix2 p k := funext fun a => Fin.ext (by
    match a with
    | ⟨0, _⟩ => exact matmul_lhs_row _ _
    | ⟨1, _⟩ => exact (matmul_lhs_col _ _).trans hk)
  have er : dot_S10000x64_S64x4_S10000x4_1_0_0_1_n_n.rhsIdx (ix2 p q) ((ValueIdx.contrEquiv1 dot_S10000x64_S64x4_S10000x4_1_0_0_1_n_n 64 rfl rfl).symm k) = ix2 k q := funext fun a => Fin.ext (by
    match a with
    | ⟨0, _⟩ => exact (matmul_rhs_row _ _).trans hk
    | ⟨1, _⟩ => exact matmul_rhs_col _ _)
  rw [el, er]

/-- The bias viewed as one row `[1, 4]` and repeated down the `10000` rows reads, at entry `(p, q)`, the bias at `q`:
    the repeated row is row `0`, and entry `(0, q)` of the one-row view is entry `q` of the vector. -/
theorem bias_entry (x2 : FVec Ideal S4 .f32) (p : Fin 10000) (q : Fin 4) :
    broadcastTo S10000x4 (shapeCast S1x4 x2 shapeCasts_S4_S1x4) broadcasts_S1x4_S10000x4 (ix2 p q) = x2 (ix1 q) := by
  refine (broadcastTo_apply _ broadcasts_S1x4_S10000x4 (ix2 p q) (ix2 (0 : Fin 1) q) (fun a => ?_)).trans ?_
  · match a with
    | ⟨0, _⟩ => rfl
    | ⟨1, _⟩ => rfl
  · refine (shapeCast_addUnit_apply ![4] x2 shapeCasts_S4_S1x4 (ix2 (0 : Fin 1) q)).trans ?_
    refine congrArg x2 (funext fun a => ?_)
    match a with
    | ⟨0, _⟩ => rfl

/-- The body's stored value at entry `(p, q)` of its block: `∑ k < 64, x0 (p, k) · x1 (k, q) + x2 q`. The casts to the
    same shape are identities, the product and the bias are read as above, and the sum is entrywise. -/
theorem payload_entry (x0 : Vec Ideal S10000x64 .f32) (x1 : Vec Ideal S64x4 .f32) (x2 : Vec Ideal S4 .f32) (p : Fin 10000) (q : Fin 4) :
    k1_pay1 (F := Ideal) x0 x1 x2 (ix2 p q) = (∑ k : Fin 64, x0 (ix2 p k) * x1 (ix2 k q)) + x2 (ix1 q) := by
  unfold k1_pay1
  rw [addf_apply, shapeCast_self, shapeCast_self, shapeCast_self, matmul_entry, bias_entry]

/-- If the three blocks agree with three arrays `H`, `Wt`, `b` where the entry `(p, q)` reads them — row `p` of the first
    block is row `r` of `H`, column `q` of the second is column `q` of `Wt`, entry `q` of the third is entry `q` of `b` —
    then the stored value at `(p, q)` is entry `(r, q)` of the second layer of `H`, `Wt`, `b`. -/
theorem entry_of_blocks (H : S100000x64.Idx → EReal) (Wt : S64x4.Idx → EReal) (b : S4.Idx → EReal)
    (x0 : Vec Ideal S10000x64 .f32) (x1 : Vec Ideal S64x4 .f32) (x2 : Vec Ideal S4 .f32)
    (p : Fin 10000) (q : Fin 4) (r : Fin 100000)
    (h0 : ∀ k : Fin 64, x0 (ix2 p k) = H (ix2 r k))
    (h1 : ∀ k : Fin 64, x1 (ix2 k q) = Wt (ix2 k q))
    (h2 : x2 (ix1 q) = b (ix1 q)) :
    k1_pay1 (F := Ideal) x0 x1 x2 (ix2 p q) = Cert.Spec.lin1 H Wt b (ix2 r q) := by
  rw [payload_entry, Cert.Spec.lin1_ix2]
  unfold Cert.Spec.lin1At
  rw [h2, Finset.sum_congr rfl (fun k _ => by rw [h0 k, h1 k])]

/-! ## The blocks the body reads and writes, at a point -/

variable (V : (c : Dev nD) → (b : Ref sig .tc) → Buf (Elt Ideal) ((c : Thread nD τ).loc b))

/-- The zero offsets of a rank-2 access, as the constant function. -/
theorem zero_offsets2 : (![0, 0] : Fin 2 → Nat) = fun _ => 0 := funext fun a => by
  match a with
  | ⟨0, _⟩ => rfl
  | ⟨1, _⟩ => rfl
/-- The zero offset of a rank-1 access, as the constant function. -/
theorem zero_offsets1 : (![0] : Fin 1 → Nat) = fun _ => 0 := funext fun a => by
  match a with
  | ⟨0, _⟩ => rfl

/-- The block indices at point `t` of the ten: the hidden rows and the result rows are block `t` of their arrays on
    the row axis and block `0` on the column axis; the weight and the bias are block `0` on every axis (they are whole). -/
theorem block_indices : ∀ t : Fin cfg1.N, win1_0.index t (0 : Fin 2) = t.val
    ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- Row `p` of the hidden block at point `t` is row `10000 t + p` of the hidden array. -/
theorem rows_block_entry (c : Dev nD) (t : Fin cfg1.N) (p : Fin 10000) (k : Fin 64) (r : Fin 100000)
    (hr : r.val = t.val * 10000 + p.val) :
    (iblk1 V c 0 t : Vec Ideal S10000x64 .f32) (ix2 p k) = (V c main_v50 : S100000x64.Idx → EReal) (ix2 r k) := by
  obtain ⟨e0, e1, -, -, -, -, -⟩ := block_indices t
  unfold iblk1
  rw [View.read_apply]
  show V c main_v50 _ = V c main_v50 _
  congr 1
  funext a
  apply Fin.ext
  match a with
  | ⟨0, _⟩ => show win1_0.index t (0 : Fin 2) * 10000 + 1 * p.val = r.val; omega
  | ⟨1, _⟩ => show win1_0.index t (1 : Fin 2) * 64 + 1 * k.val = k.val; omega

/-- The weight block at every point is the weight array. -/
theorem weight_block_entry (c : Dev nD) (t : Fin cfg1.N) (k : Fin 64) (q : Fin 4) :
    (iblk1 V c 1 t : Vec Ideal S64x4 .f32) (ix2 k q) = (V c main_v52 : S64x4.Idx → EReal) (ix2 k q) := by
  obtain ⟨-, -, e2, e3, -, -, -⟩ := block_indices t
  unfold iblk1
  rw [View.read_apply]
  show V c main_v52 _ = V c main_v52 _
  congr 1
  funext a
  apply Fin.ext
  match a with
  | ⟨0, _⟩ => show win1_1.index t (0 : Fin 2) * 64 + 1 * k.val = k.val; omega
  | ⟨1, _⟩ => show win1_1.index t (1 : Fin 2) * 4 + 1 * q.val = q.val; omega

/-- The bias block at every point is the bias array. -/
theorem bias_block_entry (c : Dev nD) (t : Fin cfg1.N) (q : Fin 4) :
    (iblk1 V c 2 t : Vec Ideal S4 .f32) (ix1 q) = (V c main_v51 : S4.Idx → EReal) (ix1 q) := by
  obtain ⟨-, -, -, -, e4, -, -⟩ := block_indices t
  unfold iblk1
  rw [View.read_apply]
  show V c main_v51 _ = V c main_v51 _
  congr 1
  funext a
  apply Fin.ext
  match a with
  | ⟨0, _⟩ => show win1_2.index t (0 : Fin 1) * 4 + 1 * q.val = q.val; omega

/-- What point `t` writes back is block `t` of the second layer of the arrays the region finds: the body's one store
    covers its whole buffer, its loads read the three whole input blocks, and entry `(p, q)` of the stored value is
    entry `(10000 t + p, q)` of the layer, which is where the result's block `t` puts it. -/
theorem flushed_eq (c : Dev nD) (t : Fin cfg1.N) :
    (dat1 (F := Ideal) V c).flushed 3 t = ((cfg1.win 3).blk t).view.read (Elt Ideal) (Cert.Spec.lin1 (V c main_v50) (V c main_v52) (V c main_v51)) := by
  show (cfg1.win 3).cut (grid1.coords t) ((dat1 V c).after 3 t) = _
  rw [after1_3]
  unfold out1_3
  rw [View.canon_unit_zero zero_offsets2]
  simp only [View.ld_unit_zero (S := S10000x64) zero_offsets2, View.ld_unit_zero (S := S64x4) zero_offsets2, View.ld_unit_zero (S := S4) zero_offsets1]
  obtain ⟨-, -, -, -, -, e5, e6⟩ := block_indices t
  have ht : t.val < 10 := t.isLt
  refine funext fun (j : S10000x4.Idx) => ?_
  obtain ⟨p, q, rfl⟩ : ∃ (p : Fin 10000) (q : Fin 4), j = ix2 p q := ⟨j 0, j 1, eq_ix2 j⟩
  show k1_pay1 (iblk1 V c 0 t) (iblk1 V c 1 t) (iblk1 V c 2 t) (ix2 p q)
    = Cert.Spec.lin1 (V c main_v50) (V c main_v52) (V c main_v51) (((cfg1.win 3).blk t).view.emb (ix2 p q))
  refine (entry_of_blocks _ _ _ _ _ _ p q ⟨t.val * 10000 + p.val, by have := p.isLt; omega⟩
    (fun k => rows_block_entry V c t p k _ rfl) (fun k => weight_block_entry V c t k q) (bias_block_entry V c t q)).trans (congrArg _ ?_)
  funext a
  apply Fin.ext
  match a with
  | ⟨0, _⟩ => show t.val * 10000 + p.val = win1_3.index t (0 : Fin 2) * 10000 + 1 * p.val; omega
  | ⟨1, _⟩ => show q.val = win1_3.index t (1 : Fin 2) * 4 + 1 * q.val; omega

/-! ## From the blocks to the array -/

/-- An index of the result array is in point `t`'s block iff each coordinate is in the block's range on its axis. -/
theorem mem_block (t : Fin cfg1.N) (i : S100000x4.Idx) :
    i ∈ ((cfg1.win 3).blk t).view.set ↔ ∀ a : Fin 2, win1_3.index t a * S10000x4.size a ≤ (i a).val ∧ (i a).val < win1_3.index t a * S10000x4.size a + S10000x4.size a := by
  show i ∈ ((View.whole main_v53).slice (win1_3.rect t)).set ↔ _
  rw [View.set_slice_whole, Rect.mem_set_unit]
  exact Iff.rfl

/-- The ten blocks cover the result: entry `(r, c)` is in the block of point `r / 10000`, and every point writes back. -/
theorem blocks_cover (i : S100000x4.Idx) :
    ∃ t : Fin cfg1.N, (cfg1.win 3).flush t = true ∧ i ∈ ((cfg1.win 3).blk t).view.set := by
  have hi0 : (i 0).val < 100000 := (i 0).isLt
  have hi1 : (i 1).val < 4 := (i 1).isLt
  obtain ⟨t, ht⟩ : ∃ t : Fin cfg1.N, t.val = (i 0).val / 10000 := ⟨⟨(i 0).val / 10000, by show _ < 10; omega⟩, rfl⟩
  obtain ⟨-, -, -, -, -, e5, e6⟩ := block_indices t
  refine ⟨t, flush1_3 t, ?_⟩
  rw [mem_block]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 4 ≤ (i 1).val ∧ (i 1).val < win1_3.index t (1 : Fin 2) * 4 + 4; omega

/-- After region 1 its result array is the second layer of the arrays the region finds. -/
theorem arr1 (c : Dev nD) :
    (dat1 (F := Ideal) V c).arrAt 3 cfg1.N = Cert.Spec.lin1 (V c main_v50) (V c main_v52) (V c main_v51) :=
  (dat1 (F := Ideal) V c).arrAt_eq_of_cover 3 (Cert.Spec.lin1 (V c main_v50) (V c main_v52) (V c main_v51))
    (fun t _ => flushed_eq V c t) blocks_cover

end Cert.KernelIdeal.Region1

end
-- ==== Proof.KFold.lean ====
/-
  The kernel program's result, read off its run. Between the launch and the return the program's buffers pass
  through nine boundaries: five host stretches (the edge lists with self-loops, the edge weights, the degrees, each
  node's normalisation factor, the edge coefficients, the first layer's aggregate), the first dense layer's region,
  a short stretch (the zero bias and the transposed second weight), the second dense layer's region, and the tail
  (gather, scale, accumulate, bias). Each lemma below reads ONE buffer at ONE boundary from the buffers of the
  boundary before, so that the result is, at the end, one explicit function of the argument arrays:
  `kres`, in which the two regions enter only through the whole-array functions of their output arrays.
-/
import proofs.«408969_j82918638616893_3_alg».proof.Proof.Gen.KernelIdeal.Frame
import proofs.«408969_j82918638616893_3_alg».proof.Proof.Gen.ReferenceIdeal.Read
import proofs.«408969_j82918638616893_3_alg».proof.Proof.KSpec
import proofs.«408969_j82918638616893_3_alg».proof.Proof.Region0
import proofs.«408969_j82918638616893_3_alg».proof.Proof.Region1
import Idealize.ShloMosaic.Lib.StableHlo.Run
import Idealize.ShloMosaic.PureOps.Ideal

set_option maxRecDepth 16384

noncomputable section

namespace Cert.KernelIdeal.Fold

open Cert.KernelIdeal Cert.KernelIdeal.Facts₀ Cert.KernelIdeal.Facts Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-! ## After the first stretch: the edge lists with self-loops, the edge weights, the degrees and their signs -/

set_option maxHeartbeats 8000000 in
theorem W1_v3 (c : Dev nD) : W1 (F := Ideal) m ρ c (Proc.devRef .tc main_v3)
    = Cert.ReferenceIdeal.Read.val_main_v3 (F := Ideal) (m ((c : Thread nD τ).loc main_arg1)) := by
  dsimp only [W1, W0, hostOps0]
  after_results_simp <;> rfl
set_option maxHeartbeats 8000000 in
theorem W1_v6 (c : Dev nD) : W1 (F := Ideal) m ρ c (Proc.devRef .tc main_v6)
    = Cert.ReferenceIdeal.Read.val_main_v6 (F := Ideal) (m ((c : Thread nD τ).loc main_arg1)) := by
  dsimp only [W1, W0, hostOps0]
  after_results_simp <;> rfl
set_option maxHeartbeats 8000000 in
theorem W1_v9 (c : Dev nD) : W1 (F := Ideal) m ρ c (Proc.devRef .tc main_v9)
    = Cert.ReferenceIdeal.Read.val_main_v9 (F := Ideal) (m ((c : Thread nD τ).loc main_arg2)) := by
  dsimp only [W1, W0, hostOps0]
  after_results_simp <;> rfl
set_option maxHeartbeats 8000000 in
theorem W1_v12 (c : Dev nD) : W1 (F := Ideal) m ρ c (Proc.devRef .tc main_v12)
    = Cert.ReferenceIdeal.Read.val_main_v12 (F := Ideal) (m ((c : Thread nD τ).loc main_arg1)) (m ((c : Thread nD τ).loc main_arg2)) := by
  dsimp only [W1, W0, hostOps0]
  after_results_simp <;> rfl
set_option maxHeartbeats 8000000 in
theorem W1_v14 (c : Dev nD) : W1 (F := Ideal) m ρ c (Proc.devRef .tc main_v14)
    = Cert.ReferenceIdeal.Read.val_main_v14 (F := Ideal) (m ((c : Thread nD τ).loc main_arg1)) (m ((c : Thread nD τ).loc main_arg2)) := by
  dsimp only [W1, W0, hostOps0]
  after_results_simp <;> rfl
set_option maxHeartbeats 8000000 in
theorem W1_v16 (c : Dev nD) : W1 (F := Ideal) m ρ c (Proc.devRef .tc main_v16)
    = Cert.ReferenceIdeal.Read.val_main_v16 (F := Ideal) (m ((c : Thread nD τ).loc main_arg1)) (m ((c : Thread nD τ).loc main_arg2)) := by
  dsimp only [W1, W0, hostOps0]
  after_results_simp <;> rfl
set_option maxHeartbeats 8000000 in
theorem W1_cst_3 (c : Dev nD) : W1 (F := Ideal) m ρ c (Proc.devRef .tc main_cst_3)
    = Cert.ReferenceIdeal.Read.val_main_cst_3 (F := Ideal) := by
  dsimp only [W1, W0, hostOps0]
  after_results_simp <;> rfl

/-! ## The two selections and the inverse square root: each node's normalisation factor -/

/-- A selection inside an outlined function, read without the transports between a value's type and its buffer's. -/
theorem where0_eq (XC : (⟨Cert.ReferenceIdeal.S100000, .i1⟩ : BufTy).Contents (Elt Ideal)) (XV : (⟨Cert.ReferenceIdeal.S100000, .f32⟩ : BufTy).Contents (Elt Ideal)) (XK : (⟨Cert.ReferenceIdeal.S_, .f32⟩ : BufTy).Contents (Elt Ideal)) :
    ((TRef.of (sig := sig) (T := ⟨S100000, .f32⟩) main_v17).toBuf (select ((TRef.of (sig := sig) (T := ⟨S100000, .i1⟩) main_v16).ofBuf XC) ((TRef.of (sig := sig) (T := ⟨S100000, .f32⟩) main_v12).ofBuf XV) ((TRef.of (sig := sig) (T := ⟨S100000, .f32⟩) main_call0_v1).ofBuf ((TRef.of (sig := sig) (T := ⟨S100000, .f32⟩) main_call0_v1).toBuf (broadcastInDim S100000 ![] Cert.KernelIdeal.Facts₀.bcast_S_S100000 ((TRef.of (sig := sig) (T := ⟨S_, .f32⟩) main_call0_v0).ofBuf ((TRef.of (sig := sig) (T := ⟨S_, .f32⟩) main_call0_v0).toBuf (id ((TRef.of (sig := sig) (T := ⟨S_, .f32⟩) main_cst_3).ofBuf XK)))))))) : FVec Ideal S100000 .f32)
      = select XC XV (broadcastInDim Cert.ReferenceIdeal.S100000 ![] Cert.ReferenceIdeal.Facts₀.bcast_S_S100000 (id XK)) := rfl

/-- A selection inside an outlined function, read without the transports between a value's type and its buffer's. -/
theorem where1_eq (XC : (⟨Cert.ReferenceIdeal.S100000, .i1⟩ : BufTy).Contents (Elt Ideal)) (XV : (⟨Cert.ReferenceIdeal.S100000, .f32⟩ : BufTy).Contents (Elt Ideal)) (XK : (⟨Cert.ReferenceIdeal.S_, .f32⟩ : BufTy).Contents (Elt Ideal)) :
    ((TRef.of (sig := sig) (T := ⟨S100000, .f32⟩) main_v19).toBuf (select ((TRef.of (sig := sig) (T := ⟨S100000, .i1⟩) main_v14).ofBuf XC) ((TRef.of (sig := sig) (T := ⟨S100000, .f32⟩) main_v18).ofBuf XV) ((TRef.of (sig := sig) (T := ⟨S100000, .f32⟩) main_call1_v1).ofBuf ((TRef.of (sig := sig) (T := ⟨S100000, .f32⟩) main_call1_v1).toBuf (broadcastInDim S100000 ![] Cert.KernelIdeal.Facts₀.bcast_S_S100000 ((TRef.of (sig := sig) (T := ⟨S_, .f32⟩) main_call1_v0).ofBuf ((TRef.of (sig := sig) (T := ⟨S_, .f32⟩) main_call1_v0).toBuf (id ((TRef.of (sig := sig) (T := ⟨S_, .f32⟩) main_cst_4).ofBuf XK)))))))) : FVec Ideal S100000 .f32)
      = select XC XV (broadcastInDim Cert.ReferenceIdeal.S100000 ![] Cert.ReferenceIdeal.Facts₀.bcast_S_S100000 (id XK)) := rfl

set_option maxHeartbeats 8000000 in
theorem W2_v17 (c : Dev nD) : W2 (F := Ideal) m ρ c (Proc.devRef .tc main_v17)
    = Cert.ReferenceIdeal.Read.val_main_v17 (F := Ideal) (m ((c : Thread nD τ).loc main_arg1)) (m ((c : Thread nD τ).loc main_arg2)) := by
  have h0 := W1_v16 m ρ c
  have h1 := W1_v12 m ρ c
  have h2 := W1_cst_3 m ρ c
  dsimp only [W2]
  generalize W1 (F := Ideal) m ρ c = V at h0 h1 h2 ⊢
  dsimp only [hostOps0_1]
  after_results_simp
  rw [h0, h1, h2]
  unfold Cert.ReferenceIdeal.Read.val_main_v17 Cert.ReferenceIdeal.Read.val_main_call0_v1 Cert.ReferenceIdeal.Read.val_main_call0_v0
  generalize Cert.ReferenceIdeal.Read.val_main_v16 (F := Ideal) (m ((c : Thread nD τ).loc main_arg1)) (m ((c : Thread nD τ).loc main_arg2)) = X16
  generalize Cert.ReferenceIdeal.Read.val_main_v12 (F := Ideal) (m ((c : Thread nD τ).loc main_arg1)) (m ((c : Thread nD τ).loc main_arg2)) = X12
  generalize Cert.ReferenceIdeal.Read.val_main_cst_3 (F := Ideal) = X3
  exact where0_eq X16 X12 X3
set_option maxHeartbeats 8000000 in
theorem W3_v18 (c : Dev nD) : W3 (F := Ideal) m ρ c (Proc.devRef .tc main_v18)
    = Cert.ReferenceIdeal.Read.val_main_v18 (F := Ideal) (m ((c : Thread nD τ).loc main_arg1)) (m ((c : Thread nD τ).loc main_arg2)) := by
  have h0 := W2_v17 m ρ c
  dsimp only [W3]
  generalize W2 (F := Ideal) m ρ c = V at h0 ⊢
  dsimp only [hostOps0_2]
  after_results_simp
  rw [h0]
  unfold Cert.ReferenceIdeal.Read.val_main_v18
  generalize Cert.ReferenceIdeal.Read.val_main_v17 (F := Ideal) (m ((c : Thread nD τ).loc main_arg1)) (m ((c : Thread nD τ).loc main_arg2)) = X17
  rfl
set_option maxHeartbeats 8000000 in
theorem W3_cst_4 (c : Dev nD) : W3 (F := Ideal) m ρ c (Proc.devRef .tc main_cst_4)
    = Cert.ReferenceIdeal.Read.val_main_cst_4 (F := Ideal) := by
  dsimp only [W3]
  generalize W2 (F := Ideal) m ρ c = V
  dsimp only [hostOps0_2]
  after_results_simp <;> rfl
set_option maxHeartbeats 8000000 in
theorem W3_v14 (c : Dev nD) : W3 (F := Ideal) m ρ c (Proc.devRef .tc main_v14)
    = Cert.ReferenceIdeal.Read.val_main_v14 (F := Ideal) (m ((c : Thread nD τ).loc main_arg1)) (m ((c : Thread nD τ).loc main_arg2)) := by
  have h0 := W1_v14 m ρ c
  dsimp only [W3, W2]
  generalize W1 (F := Ideal) m ρ c = V at h0 ⊢
  dsimp only [hostOps0_2, hostOps0_1]
  after_results_simp
  exact h0
set_option maxHeartbeats 8000000 in
theorem W4_v19 (c : Dev nD) : W4 (F := Ideal) m ρ c (Proc.devRef .tc main_v19)
    = Cert.ReferenceIdeal.Read.val_main_v19 (F := Ideal) (m ((c : Thread nD τ).loc main_arg1)) (m ((c : Thread nD τ).loc main_arg2)) := by
  have h0 := W3_v14 m ρ c
  have h1 := W3_v18 m ρ c
  have h2 := W3_cst_4 m ρ c
  dsimp only [W4]
  generalize W3 (F := Ideal) m ρ c = V at h0 h1 h2 ⊢
  dsimp only [hostOps0_3]
  after_results_simp
  rw [h0, h1, h2]
  unfold Cert.ReferenceIdeal.Read.val_main_v19 Cert.ReferenceIdeal.Read.val_main_call1_v1 Cert.ReferenceIdeal.Read.val_main_call1_v0
  generalize Cert.ReferenceIdeal.Read.val_main_v14 (F := Ideal) (m ((c : Thread nD τ).loc main_arg1)) (m ((c : Thread nD τ).loc main_arg2)) = X14
  generalize Cert.ReferenceIdeal.Read.val_main_v18 (F := Ideal) (m ((c : Thread nD τ).loc main_arg1)) (m ((c : Thread nD τ).loc main_arg2)) = X18
  generalize Cert.ReferenceIdeal.Read.val_main_cst_4 (F := Ideal) = X4
  exact where1_eq X14 X18 X4
set_option maxHeartbeats 8000000 in
theorem W4_v3 (c : Dev nD) : W4 (F := Ideal) m ρ c (Proc.devRef .tc main_v3)
    = Cert.ReferenceIdeal.Read.val_main_v3 (F := Ideal) (m ((c : Thread nD τ).loc main_arg1)) := by
  have h0 := W1_v3 m ρ c
  dsimp only [W4, W3, W2]
  generalize W1 (F := Ideal) m ρ c = V at h0 ⊢
  dsimp only [hostOps0_3, hostOps0_2, hostOps0_1]
  after_results_simp
  exact h0
set_option maxHeartbeats 8000000 in
theorem W4_v6 (c : Dev nD) : W4 (F := Ideal) m ρ c (Proc.devRef .tc main_v6)
    = Cert.ReferenceIdeal.Read.val_main_v6 (F := Ideal) (m ((c : Thread nD τ).loc main_arg1)) := by
  have h0 := W1_v6 m ρ c
  dsimp only [W4, W3, W2]
  generalize W1 (F := Ideal) m ρ c = V at h0 ⊢
  dsimp only [hostOps0_3, hostOps0_2, hostOps0_1]
  after_results_simp
  exact h0
set_option maxHeartbeats 8000000 in
theorem W4_v9 (c : Dev nD) : W4 (F := Ideal) m ρ c (Proc.devRef .tc main_v9)
    = Cert.ReferenceIdeal.Read.val_main_v9 (F := Ideal) (m ((c : Thread nD τ).loc main_arg2)) := by
  have h0 := W1_v9 m ρ c
  dsimp only [W4, W3, W2]
  generalize W1 (F := Ideal) m ρ c = V at h0 ⊢
  dsimp only [hostOps0_3, hostOps0_2, hostOps0_1]
  after_results_simp
  exact h0

/-! ## The arguments, untouched by the host stretches -/

set_option maxHeartbeats 8000000 in
theorem W4_arg0 (c : Dev nD) : W4 (F := Ideal) m ρ c (Proc.devRef .tc main_arg0) = m ((c : Thread nD τ).loc main_arg0) := by
  dsimp only [W4, W3, W2, W1, W0, hostOps0_3, hostOps0_2, hostOps0_1, hostOps0]
  after_results_simp <;> rfl
set_option maxHeartbeats 8000000 in
theorem W4_arg5 (c : Dev nD) : W4 (F := Ideal) m ρ c (Proc.devRef .tc main_arg5) = m ((c : Thread nD τ).loc main_arg5) := by
  dsimp only [W4, W3, W2, W1, W0, hostOps0_3, hostOps0_2, hostOps0_1, hostOps0]
  after_results_simp <;> rfl
set_option maxHeartbeats 8000000 in
theorem W5_arg6 (c : Dev nD) : W5 (F := Ideal) m ρ c (Proc.devRef .tc main_arg6) = m ((c : Thread nD τ).loc main_arg6) := by
  dsimp only [W5, W4, W3, W2, W1, W0, hostOps0_3, hostOps0_2, hostOps0_1, hostOps0, hostOps0_4]
  after_results_simp <;> rfl
set_option maxHeartbeats 8000000 in
theorem W5_arg7 (c : Dev nD) : W5 (F := Ideal) m ρ c (Proc.devRef .tc main_arg7) = m ((c : Thread nD τ).loc main_arg7) := by
  dsimp only [W5, W4, W3, W2, W1, W0, hostOps0_3, hostOps0_2, hostOps0_1, hostOps0, hostOps0_4]
  after_results_simp <;> rfl
set_option maxHeartbeats 8000000 in
theorem W5_arg8 (c : Dev nD) : W5 (F := Ideal) m ρ c (Proc.devRef .tc main_arg8) = m ((c : Thread nD τ).loc main_arg8) := by
  dsimp only [W5, W4, W3, W2, W1, W0, hostOps0_3, hostOps0_2, hostOps0_1, hostOps0, hostOps0_4]
  after_results_simp <;> rfl

/-! ## At the first region's entry: the edge coefficients, the aggregate, the transposed weight -/

set_option maxHeartbeats 8000000 in
theorem W5_v35 (c : Dev nD) : W5 (F := Ideal) m ρ c (Proc.devRef .tc main_v35)
    = Cert.KernelIdeal.KSpec.coeff (W4 (F := Ideal) m ρ c (Proc.devRef .tc main_v19)) (W4 (F := Ideal) m ρ c (Proc.devRef .tc main_v3)) (W4 (F := Ideal) m ρ c (Proc.devRef .tc main_v6)) (W4 (F := Ideal) m ρ c (Proc.devRef .tc main_v9)) := by
  dsimp only [W5]
  generalize W4 (F := Ideal) m ρ c = V
  dsimp only [hostOps0_4]
  after_results_simp <;> rfl
set_option maxHeartbeats 8000000 in
theorem W5_v48 (c : Dev nD) : W5 (F := Ideal) m ρ c (Proc.devRef .tc main_v48)
    = Cert.KernelIdeal.KSpec.agg (W4 (F := Ideal) m ρ c (Proc.devRef .tc main_arg0)) (W4 (F := Ideal) m ρ c (Proc.devRef .tc main_v3)) (W4 (F := Ideal) m ρ c (Proc.devRef .tc main_v6))
      (Cert.KernelIdeal.KSpec.coeff (W4 (F := Ideal) m ρ c (Proc.devRef .tc main_v19)) (W4 (F := Ideal) m ρ c (Proc.devRef .tc main_v3)) (W4 (F := Ideal) m ρ c (Proc.devRef .tc main_v6)) (W4 (F := Ideal) m ρ c (Proc.devRef .tc main_v9))) := by
  dsimp only [W5]
  generalize W4 (F := Ideal) m ρ c = V
  dsimp only [hostOps0_4]
  after_results_simp <;> rfl
set_option maxHeartbeats 8000000 in
theorem W5_v49 (c : Dev nD) : W5 (F := Ideal) m ρ c (Proc.devRef .tc main_v49)
    = transpose S5x64 [1, 0] (W4 (F := Ideal) m ρ c (Proc.devRef .tc main_arg5)) Cert.KernelIdeal.Facts₀.transposes_S64x5_S5x64_1_0 := by
  dsimp only [W5]
  generalize W4 (F := Ideal) m ρ c = V
  dsimp only [hostOps0_4]
  after_results_simp <;> rfl
set_option maxHeartbeats 8000000 in
theorem W5_v3 (c : Dev nD) : W5 (F := Ideal) m ρ c (Proc.devRef .tc main_v3)
    = W4 (F := Ideal) m ρ c (Proc.devRef .tc main_v3) := by
  dsimp only [W5]
  generalize W4 (F := Ideal) m ρ c = V
  dsimp only [hostOps0_4]
  after_results_simp <;> rfl
set_option maxHeartbeats 8000000 in
theorem W5_v6 (c : Dev nD) : W5 (F := Ideal) m ρ c (Proc.devRef .tc main_v6)
    = W4 (F := Ideal) m ρ c (Proc.devRef .tc main_v6) := by
  dsimp only [W5]
  generalize W4 (F := Ideal) m ρ c = V
  dsimp only [hostOps0_4]
  after_results_simp <;> rfl

/-! ## Across the first region: its result array is the first layer of what it finds; every other buffer stays -/

theorem W6_v50 (c : Dev nD) : W6 (F := Ideal) m ρ c (Proc.devRef .tc main_v50)
    = Cert.Spec.lin0 (W5 (F := Ideal) m ρ c (Proc.devRef .tc main_v48)) (W5 (F := Ideal) m ρ c (Proc.devRef .tc main_v49)) (W5 (F := Ideal) m ρ c (Proc.devRef .tc main_arg6)) :=
  (W6_arr m ρ c 3).trans (Cert.KernelIdeal.Region0.arr0 (V5 m ρ) c)

theorem W6_v3 (c : Dev nD) : W6 (F := Ideal) m ρ c (Proc.devRef .tc main_v3) = W5 (F := Ideal) m ρ c (Proc.devRef .tc main_v3) :=
  W6_of_ne m ρ c main_v3 (by decide)
theorem W6_v6 (c : Dev nD) : W6 (F := Ideal) m ρ c (Proc.devRef .tc main_v6) = W5 (F := Ideal) m ρ c (Proc.devRef .tc main_v6) :=
  W6_of_ne m ρ c main_v6 (by decide)
theorem W6_v35 (c : Dev nD) : W6 (F := Ideal) m ρ c (Proc.devRef .tc main_v35) = W5 (F := Ideal) m ρ c (Proc.devRef .tc main_v35) :=
  W6_of_ne m ρ c main_v35 (by decide)
theorem W6_arg7 (c : Dev nD) : W6 (F := Ideal) m ρ c (Proc.devRef .tc main_arg7) = W5 (F := Ideal) m ρ c (Proc.devRef .tc main_arg7) :=
  W6_of_ne m ρ c main_arg7 (by decide)
theorem W6_arg8 (c : Dev nD) : W6 (F := Ideal) m ρ c (Proc.devRef .tc main_arg8) = W5 (F := Ideal) m ρ c (Proc.devRef .tc main_arg8) :=
  W6_of_ne m ρ c main_arg8 (by decide)

/-! ## Between the regions: the zero bias and the transposed second weight -/

set_option maxHeartbeats 8000000 in
theorem W7_v51 (c : Dev nD) : W7 (F := Ideal) m ρ c (Proc.devRef .tc main_v51)
    = Cert.KernelIdeal.KSpec.zeroBias := by
  dsimp only [W7]
  generalize W6 (F := Ideal) m ρ c = V
  dsimp only [hostOps1]
  after_results_simp <;> rfl
set_option maxHeartbeats 8000000 in
theorem W7_v52 (c : Dev nD) : W7 (F := Ideal) m ρ c (Proc.devRef .tc main_v52)
    = transpose S64x4 [1, 0] (W6 (F := Ideal) m ρ c (Proc.devRef .tc main_arg7)) Cert.KernelIdeal.Facts₀.transposes_S4x64_S64x4_1_0 := by
  dsimp only [W7]
  generalize W6 (F := Ideal) m ρ c = V
  dsimp only [hostOps1]
  after_results_simp <;> rfl
set_option maxHeartbeats 8000000 in
theorem W7_v50 (c : Dev nD) : W7 (F := Ideal) m ρ c (Proc.devRef .tc main_v50)
    = W6 (F := Ideal) m ρ c (Proc.devRef .tc main_v50) := by
  dsimp only [W7]
  generalize W6 (F := Ideal) m ρ c = V
  dsimp only [hostOps1]
  after_results_simp <;> rfl
set_option maxHeartbeats 8000000 in
theorem W7_v3 (c : Dev nD) : W7 (F := Ideal) m ρ c (Proc.devRef .tc main_v3)
    = W6 (F := Ideal) m ρ c (Proc.devRef .tc main_v3) := by
  dsimp only [W7]
  generalize W6 (F := Ideal) m ρ c = V
  dsimp only [hostOps1]
  after_results_simp <;> rfl
set_option maxHeartbeats 8000000 in
theorem W7_v6 (c : Dev nD) : W7 (F := Ideal) m ρ c (Proc.devRef .tc main_v6)
    = W6 (F := Ideal) m ρ c (Proc.devRef .tc main_v6) := by
  dsimp only [W7]
  generalize W6 (F := Ideal) m ρ c = V
  dsimp only [hostOps1]
  after_results_simp <;> rfl
set_option maxHeartbeats 8000000 in
theorem W7_v35 (c : Dev nD) : W7 (F := Ideal) m ρ c (Proc.devRef .tc main_v35)
    = W6 (F := Ideal) m ρ c (Proc.devRef .tc main_v35) := by
  dsimp only [W7]
  generalize W6 (F := Ideal) m ρ c = V
  dsimp only [hostOps1]
  after_results_simp <;> rfl
set_option maxHeartbeats 8000000 in
theorem W7_arg8 (c : Dev nD) : W7 (F := Ideal) m ρ c (Proc.devRef .tc main_arg8)
    = W6 (F := Ideal) m ρ c (Proc.devRef .tc main_arg8) := by
  dsimp only [W7]
  generalize W6 (F := Ideal) m ρ c = V
  dsimp only [hostOps1]
  after_results_simp <;> rfl

/-! ## Across the second region -/

theorem W8_v53 (c : Dev nD) : W8 (F := Ideal) m ρ c (Proc.devRef .tc main_v53)
    = Cert.Spec.lin1 (W7 (F := Ideal) m ρ c (Proc.devRef .tc main_v50)) (W7 (F := Ideal) m ρ c (Proc.devRef .tc main_v52)) (W7 (F := Ideal) m ρ c (Proc.devRef .tc main_v51)) :=
  (W8_arr m ρ c 3).trans (Cert.KernelIdeal.Region1.arr1 (V7 m ρ) c)

theorem W8_v3 (c : Dev nD) : W8 (F := Ideal) m ρ c (Proc.devRef .tc main_v3) = W7 (F := Ideal) m ρ c (Proc.devRef .tc main_v3) :=
  W8_of_ne m ρ c main_v3 (by decide)
theorem W8_v6 (c : Dev nD) : W8 (F := Ideal) m ρ c (Proc.devRef .tc main_v6) = W7 (F := Ideal) m ρ c (Proc.devRef .tc main_v6) :=
  W8_of_ne m ρ c main_v6 (by decide)
theorem W8_v35 (c : Dev nD) : W8 (F := Ideal) m ρ c (Proc.devRef .tc main_v35) = W7 (F := Ideal) m ρ c (Proc.devRef .tc main_v35) :=
  W8_of_ne m ρ c main_v35 (by decide)
theorem W8_arg8 (c : Dev nD) : W8 (F := Ideal) m ρ c (Proc.devRef .tc main_arg8) = W7 (F := Ideal) m ρ c (Proc.devRef .tc main_arg8) :=
  W8_of_ne m ρ c main_arg8 (by decide)

/-! ## The tail: gather, scale, accumulate, add the bias -/

set_option maxHeartbeats 8000000 in
theorem W9_v69 (c : Dev nD) : W9 (F := Ideal) m ρ c (Proc.devRef .tc main_v69)
    = Cert.KernelIdeal.KSpec.out (W8 (F := Ideal) m ρ c (Proc.devRef .tc main_v53)) (W8 (F := Ideal) m ρ c (Proc.devRef .tc main_v3)) (W8 (F := Ideal) m ρ c (Proc.devRef .tc main_v6)) (W8 (F := Ideal) m ρ c (Proc.devRef .tc main_v35)) (W8 (F := Ideal) m ρ c (Proc.devRef .tc main_arg8)) := by
  dsimp only [W9]
  generalize W8 (F := Ideal) m ρ c = V
  dsimp only [hostOps2]
  after_results_simp <;> rfl

/-! ## The result as one function of the arguments -/

/-- The kernel's result buffer after the run is `kres` of the arguments. -/
theorem result_eq (c : Dev nD) : W9 (F := Ideal) m ρ c (Proc.devRef .tc main_v69)
    = Cert.KernelIdeal.KSpec.kres (m ((c : Thread nD τ).loc main_arg0)) (Cert.ReferenceIdeal.Read.val_main_v3 (F := Ideal) (m ((c : Thread nD τ).loc main_arg1))) (Cert.ReferenceIdeal.Read.val_main_v6 (F := Ideal) (m ((c : Thread nD τ).loc main_arg1)))
        (Cert.ReferenceIdeal.Read.val_main_v19 (F := Ideal) (m ((c : Thread nD τ).loc main_arg1)) (m ((c : Thread nD τ).loc main_arg2))) (Cert.ReferenceIdeal.Read.val_main_v9 (F := Ideal) (m ((c : Thread nD τ).loc main_arg2)))
        (m ((c : Thread nD τ).loc main_arg5)) (m ((c : Thread nD τ).loc main_arg6)) (m ((c : Thread nD τ).loc main_arg7)) (m ((c : Thread nD τ).loc main_arg8)) := by
  rw [W9_v69, W8_v53, W8_v3, W8_v6, W8_v35, W8_arg8, W7_v50, W7_v52, W7_v51, W7_v3, W7_v6, W7_v35, W7_arg8,
    W6_v50, W6_v3, W6_v6, W6_v35, W6_arg7, W6_arg8, W5_v48, W5_v49, W5_v35, W5_v3, W5_v6, W5_arg6, W5_arg7, W5_arg8,
    W4_v19, W4_v3, W4_v6, W4_v9, W4_arg0, W4_arg5]
  rfl

end Cert.KernelIdeal.Fold

end
-- ==== Proof.LibReal.lean ====
/-
  Finite reals among the extended reals. At the ideal float instance a value is an extended real;
  the laws of real arithmetic (a variance as a mean of squares minus the squared mean, say) hold
  of the FINITE ones only. This module names the predicate "is the coercion of a real", shows it
  closed under the ideal operations a kernel and its reference are built from (sum, difference,
  product, finite sums, quotient by a nonzero real, exponential, maximum and its folds), and reads
  the four f32 words a program spells for 0, 524288, +∞ and -∞.
-/
import Idealize.ShloMosaic.PureOps.Ideal
import Idealize.ShloMosaic.PureOps.Ideal.Laws
import Mathlib.Data.EReal.Operations
import Mathlib.Data.EReal.Inv
import Mathlib.Data.Finset.Fold
import Mathlib.Algebra.BigOperators.Group.Finset.Basic
import Mathlib.Analysis.SpecialFunctions.Exp

noncomputable section

namespace Cert.LibReal

open Idealize.ShloMosaic
open scoped BigOperators

/-- `x` is a finite real: the image of some `r : ℝ` in the extended reals. -/
def IsReal (x : EReal) : Prop := ∃ r : ℝ, x = (r : EReal)

/-- `x` is a positive finite real. -/
def IsPosReal (x : EReal) : Prop := ∃ r : ℝ, 0 < r ∧ x = (r : EReal)

/-! ## The predicate -/

/-- The image of a real is a finite real. -/
theorem isReal_coe (r : ℝ) : IsReal (r : EReal) := ⟨r, rfl⟩

/-- Zero is a finite real. -/
theorem isReal_zero : IsReal 0 := ⟨0, EReal.coe_zero.symm⟩

/-- One is a finite real. -/
theorem isReal_one : IsReal 1 := ⟨1, EReal.coe_one.symm⟩

/-- A finite real is not `-∞`. -/
theorem IsReal.ne_bot {x : EReal} (hx : IsReal x) : x ≠ ⊥ := by
  obtain ⟨r, rfl⟩ := hx; exact EReal.coe_ne_bot r

/-- A finite real is not `+∞`. -/
theorem IsReal.ne_top {x : EReal} (hx : IsReal x) : x ≠ ⊤ := by
  obtain ⟨r, rfl⟩ := hx; exact EReal.coe_ne_top r

/-- The finite reals are exactly the extended reals other than the two infinities. -/
theorem isReal_iff {x : EReal} : IsReal x ↔ x ≠ ⊥ ∧ x ≠ ⊤ := by
  constructor
  · intro hx; exact ⟨hx.ne_bot, hx.ne_top⟩
  · rintro ⟨hb, ht⟩
    induction x using EReal.rec with
    | bot => exact absurd rfl hb
    | top => exact absurd rfl ht
    | coe r => exact ⟨r, rfl⟩

/-- A positive finite real is a finite real. -/
theorem IsPosReal.isReal {x : EReal} (hx : IsPosReal x) : IsReal x := by
  obtain ⟨r, _, rfl⟩ := hx; exact ⟨r, rfl⟩

/-- A positive finite real is above zero in the order of the extended reals. -/
theorem IsPosReal.pos {x : EReal} (hx : IsPosReal x) : 0 < x := by
  obtain ⟨r, hr, rfl⟩ := hx; exact EReal.coe_pos.mpr hr

/-- A positive finite real is not zero. -/
theorem IsPosReal.ne_zero {x : EReal} (hx : IsPosReal x) : x ≠ 0 := hx.pos.ne'

/-- The image of a positive real is a positive finite real. -/
theorem isPosReal_coe {r : ℝ} (hr : 0 < r) : IsPosReal (r : EReal) := ⟨r, hr, rfl⟩

/-! ## Sum, difference, product, negation -/

/-- The sum of two finite reals is a finite real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The difference of two finite reals is a finite real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two finite reals is a finite real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The negation of a finite real is a finite real. -/
theorem IsReal.neg {x : EReal} (hx : IsReal x) : IsReal (-x) := by
  obtain ⟨a, rfl⟩ := hx; exact ⟨-a, (EReal.coe_neg a).symm⟩

/-- The sum of two positive finite reals is a positive finite real. -/
theorem IsPosReal.add {x y : EReal} (hx : IsPosReal x) (hy : IsPosReal y) : IsPosReal (x + y) := by
  obtain ⟨a, ha, rfl⟩ := hx; obtain ⟨b, hb, rfl⟩ := hy
  exact ⟨a + b, add_pos ha hb, (EReal.coe_add a b).symm⟩

/-- The product of two positive finite reals is a positive finite real. -/
theorem IsPosReal.mul {x y : EReal} (hx : IsPosReal x) (hy : IsPosReal y) : IsPosReal (x * y) := by
  obtain ⟨a, ha, rfl⟩ := hx; obtain ⟨b, hb, rfl⟩ := hy
  exact ⟨a * b, mul_pos ha hb, (EReal.coe_mul a b).symm⟩

/-! ## Finite sums -/

/-- The coercion of the reals into the extended reals commutes with a finite sum. -/
theorem coe_finset_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- A finite sum of extended reals that are termwise the images of reals is the image of the real sum. -/
theorem sum_eq_coe_sum {ι : Type*} (s : Finset ι) (f : ι → EReal) (g : ι → ℝ)
    (h : ∀ i ∈ s, f i = (g i : EReal)) : ∑ i ∈ s, f i = ((∑ i ∈ s, g i : ℝ) : EReal) := by
  rw [coe_finset_sum]; exact Finset.sum_congr rfl h

/-- A finite sum of finite reals is a finite real. -/
theorem IsReal.sum {ι : Type*} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- A sum over a finite type of finite reals is a finite real. -/
theorem IsReal.sum_univ {ι : Type*} [Fintype ι] (f : ι → EReal) (h : ∀ i, IsReal (f i)) :
    IsReal (∑ i, f i) :=
  IsReal.sum Finset.univ f fun i _ => h i

/-- A finite sum, over a nonempty index set, of positive finite reals is a positive finite real. -/
theorem IsPosReal.sum {ι : Type*} (s : Finset ι) (hs : s.Nonempty) (f : ι → EReal)
    (h : ∀ i ∈ s, IsPosReal (f i)) : IsPosReal (∑ i ∈ s, f i) := by
  classical
  induction s using Finset.induction_on with
  | empty => exact absurd hs Finset.not_nonempty_empty
  | insert a s ha ih =>
    rw [Finset.sum_insert ha]
    rcases s.eq_empty_or_nonempty with rfl | hne
    · rw [Finset.sum_empty, add_zero]; exact h a (Finset.mem_insert_self _ _)
    · exact (h a (Finset.mem_insert_self _ _)).add (ih hne fun i hi => h i (Finset.mem_insert_of_mem hi))

/-- A sum over a nonempty finite type of positive finite reals is a positive finite real, hence not zero. -/
theorem IsPosReal.sum_univ {ι : Type*} [Fintype ι] [Nonempty ι] (f : ι → EReal) (h : ∀ i, IsPosReal (f i)) :
    IsPosReal (∑ i, f i) :=
  IsPosReal.sum Finset.univ Finset.univ_nonempty f fun i _ => h i

/-! ## The ideal quotient -/

/-- The ideal quotient of two reals with a nonzero divisor is the real quotient. -/
theorem div_coe_coe (a : ℝ) {b : ℝ} (hb : b ≠ 0) :
    Ideal.div (a : EReal) (b : EReal) = ((a / b : ℝ) : EReal) := by
  rw [Ideal.div_coe hb, ← EReal.coe_mul, mul_one_div]

/-- The ideal quotient of a finite real by a nonzero real is a finite real. -/
theorem IsReal.div_coe {x : EReal} (hx : IsReal x) {b : ℝ} (hb : b ≠ 0) : IsReal (Ideal.div x (b : EReal)) := by
  obtain ⟨a, rfl⟩ := hx; exact ⟨a / b, div_coe_coe a hb⟩

/-- The ideal quotient of a finite real by a nonzero finite real is a finite real. -/
theorem IsReal.div {x y : EReal} (hx : IsReal x) (hy : IsReal y) (hy0 : y ≠ 0) : IsReal (Ideal.div x y) := by
  obtain ⟨b, rfl⟩ := hy
  exact hx.div_coe (EReal.coe_ne_zero.mp hy0)

/-- The ideal quotient of a finite real by a positive finite real is a finite real. -/
theorem IsReal.div_pos {x y : EReal} (hx : IsReal x) (hy : IsPosReal y) : IsReal (Ideal.div x y) :=
  hx.div hy.isReal hy.ne_zero

/-! ## The ideal exponential -/

/-- The ideal exponential of a finite real is a positive finite real. -/
theorem IsReal.exp_pos {x : EReal} (hx : IsReal x) : IsPosReal (Ideal.exp x) := by
  obtain ⟨a, rfl⟩ := hx; exact ⟨Real.exp a, Real.exp_pos a, Ideal.exp_coe a⟩

/-- The ideal exponential of a finite real is a finite real. -/
theorem IsReal.exp {x : EReal} (hx : IsReal x) : IsReal (Ideal.exp x) := hx.exp_pos.isReal

/-! ## Maximum, minimum, and a fold of the maximum from `-∞` -/

/-- The maximum of two finite reals is a finite real. -/
theorem IsReal.max {x y : EReal} (hx : IsReal x) (hy : IsReal y) : IsReal (max x y) := by
  rcases max_choice x y with h | h <;> rw [h] <;> assumption

/-- The minimum of two finite reals is a finite real. -/
theorem IsReal.min {x y : EReal} (hx : IsReal x) (hy : IsReal y) : IsReal (min x y) := by
  rcases min_choice x y with h | h <;> rw [h] <;> assumption

/-- A fold of the maximum from `-∞` over finite reals is `-∞` or a finite real, and a finite real as soon as
    the index set is nonempty. The operation is any one that IS the maximum (the order's `max`, or the ideal
    instance's `maximumf`, which carry different commutativity and associativity witnesses). -/
theorem fold_max_bot_aux {ι : Type*} (op : EReal → EReal → EReal) [Std.Commutative op] [Std.Associative op]
    (hop : ∀ x y, op x y = Max.max x y) (f : ι → EReal) (s : Finset ι) (h : ∀ i ∈ s, IsReal (f i)) :
    (s.fold op ⊥ f = ⊥ ∨ IsReal (s.fold op ⊥ f)) ∧ (s.Nonempty → IsReal (s.fold op ⊥ f)) := by
  classical
  induction s using Finset.induction_on with
  | empty => exact ⟨Or.inl Finset.fold_empty, fun hne => absurd hne Finset.not_nonempty_empty⟩
  | insert a s ha ih =>
    have hr : IsReal ((insert a s).fold op ⊥ f) := by
      rw [Finset.fold_insert ha, hop]
      rcases (ih fun i hi => h i (Finset.mem_insert_of_mem hi)).1 with hb | hb
      · rw [hb, max_eq_left bot_le]; exact h a (Finset.mem_insert_self _ _)
      · exact (h a (Finset.mem_insert_self _ _)).max hb
    exact ⟨Or.inr hr, fun _ => hr⟩

/-- The maximum of a nonempty finite family of finite reals, folded from `-∞`, is a finite real. -/
theorem IsReal.fold_max_bot {ι : Type*} (op : EReal → EReal → EReal) [Std.Commutative op] [Std.Associative op]
    (hop : ∀ x y, op x y = Max.max x y) (s : Finset ι) (hs : s.Nonempty) (f : ι → EReal)
    (h : ∀ i ∈ s, IsReal (f i)) : IsReal (s.fold op ⊥ f) :=
  (fold_max_bot_aux op hop f s h).2 hs

/-- The same for the order's own `max`. -/
theorem IsReal.fold_max {ι : Type*} (s : Finset ι) (hs : s.Nonempty) (f : ι → EReal)
    (h : ∀ i ∈ s, IsReal (f i)) : IsReal (s.fold Max.max ⊥ f) :=
  IsReal.fold_max_bot Max.max (fun _ _ => rfl) s hs f h

/-- The same for the ideal instance's `maximumf`, at any format. -/
theorem IsReal.fold_maximumf {φ : FTy} {ι : Type*} (s : Finset ι) (hs : s.Nonempty) (f : ι → Ideal φ)
    (h : ∀ i ∈ s, IsReal (f i)) :
    IsReal (s.fold (FloatOps.maximumf (F := Ideal) (φ := φ)) (⊥ : EReal) f) :=
  IsReal.fold_max_bot (FloatOps.maximumf (F := Ideal) (φ := φ)) (fun _ _ => rfl) s hs f h

/-- A fold of the maximum from a finite real over finite reals is a finite real, whatever the index set. -/
theorem IsReal.fold_max_of_isReal {ι : Type*} (op : EReal → EReal → EReal) [Std.Commutative op] [Std.Associative op]
    (hop : ∀ x y, op x y = Max.max x y) (s : Finset ι) (f : ι → EReal) {b : EReal} (hb : IsReal b)
    (h : ∀ i ∈ s, IsReal (f i)) : IsReal (s.fold op b f) := by
  classical
  induction s using Finset.induction_on with
  | empty => rw [Finset.fold_empty]; exact hb
  | insert a s ha ih =>
    rw [Finset.fold_insert ha, hop]
    exact (h a (Finset.mem_insert_self _ _)).max (ih fun i hi => h i (Finset.mem_insert_of_mem hi))

/-- Every member of the family is at most the fold of the maximum over it. -/
theorem le_fold_max {ι : Type*} (op : EReal → EReal → EReal) [Std.Commutative op] [Std.Associative op]
    (hop : ∀ x y, op x y = Max.max x y) (s : Finset ι) (f : ι → EReal) (b : EReal) {i : ι} (hi : i ∈ s) :
    f i ≤ s.fold op b f := by
  classical
  induction s using Finset.induction_on with
  | empty => exact absurd hi (Finset.notMem_empty i)
  | insert a s ha ih =>
    rw [Finset.fold_insert ha, hop]
    rcases Finset.mem_insert.mp hi with rfl | hi'
    · exact le_max_left _ _
    · exact (ih hi').trans (le_max_right _ _)

/-! ## Absolute value below `+∞` -/

/-- An extended real whose absolute value `max x (-x)` is below `+∞` is a finite real. -/
theorem isReal_of_abs_lt_top {x : EReal} (h : Max.max x (-x) < ⊤) : IsReal x := by
  induction x using EReal.rec with
  | bot => rw [EReal.neg_bot, max_eq_right bot_le] at h; exact absurd h (lt_irrefl _)
  | top => rw [max_eq_left le_top] at h; exact absurd h (lt_irrefl _)
  | coe r => exact ⟨r, rfl⟩

/-! ## Four f32 words -/

/-- The f32 word `0x00000000` denotes the real `0`. -/
theorem ofBits_zero : Ideal.ofBits .f32 0x00000000#32 = ((0 : ℝ) : EReal) := by
  rw [Ideal.ofBits_zero_f32, EReal.coe_zero]

/-- The f32 word `0x00000000` denotes a finite real. -/
theorem isReal_ofBits_zero : IsReal (Ideal.ofBits .f32 0x00000000#32) := ⟨0, ofBits_zero⟩

/-- The f32 word `0x49000000` denotes the real `524288 = 2^19`. -/
theorem ofBits_524288 : Ideal.ofBits .f32 0x49000000#32 = ((524288 : ℝ) : EReal) := by
  simp [Ideal.ofBits, Ideal.ieee, -EReal.coe_mul]; norm_num

/-- The real `524288` is not zero. -/
theorem real_524288_ne_zero : (524288 : ℝ) ≠ 0 := by norm_num

/-- The f32 word `0x7F800000` denotes `+∞`. -/
theorem ofBits_pos_inf : Ideal.ofBits .f32 0x7F800000#32 = ⊤ := by
  simp [Ideal.ofBits, Ideal.ieee]

/-- The f32 word `0xFF800000` denotes `-∞`. -/
theorem ofBits_neg_inf : Ideal.ofBits .f32 0xFF800000#32 = ⊥ := by
  simp [Ideal.ofBits, Ideal.ieee]

end Cert.LibReal

end
-- ==== Proof.Finite.lean ====
/-
  Finiteness. Under the precondition every entry of every float input is a finite real. The edge weights
  (the given weights followed by ones) are then finite; each node's degree, a sum of finitely many of them, is
  finite; its normalisation factor is `deg^(-1/2)` where `deg > 0` and `0` elsewhere, finite in both cases; and
  an edge's coefficient, the product of its weight and the factors of its two end nodes, is finite.
-/
import proofs.«408969_j82918638616893_3_alg».proof.Proof.Gen.ReferenceIdeal.Read
import proofs.«408969_j82918638616893_3_alg».proof.Proof.Gen.Pre_finite_inputs
import proofs.«408969_j82918638616893_3_alg».proof.Proof.LibReal
import Idealize.ShloMosaic.Lib.ReduceAll

noncomputable section

namespace Cert.Finite

open Idealize.ShloMosaic Cert.LibReal

/-! ## The precondition, one input at a time -/

/-- A one-bit "less than" that came out 1 says the strict order holds. -/
theorem lt_of_cmp_olt {a b : EReal} (h : Ideal.cmp .olt a b = 1#1) : a < b := by
  by_contra hn
  simp [Ideal.cmp, hn] at h

/-- One conjunct of the precondition: if the conjunction, over all entries, of "`|x i| < +∞`" is 1, then every
    entry of `x` is a finite real. The conjunction being 1 gives the bit 1 at each entry; the bit is the
    comparison of `max (x i) (-(x i))` with `+∞`; and an extended real whose absolute value is below `+∞` is
    neither infinity. -/
theorem all_isReal {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
        (cmpf .olt (Host.absf x) (broadcastInDim s ![] hb (constant Cert.Pre_finite_inputs.S_ .f32 0x7F800000#32)))
        (constantI Cert.Pre_finite_inputs.S_ 1 1#1) hr hu ValueIdx.ix0 = 1#1) (i : s.Idx) : IsReal (x i) := by
  haveI : Subsingleton Cert.Pre_finite_inputs.S_.Idx := ⟨fun a b => funext fun d => d.elim0⟩
  have h1 := Host.reduce_andi_all _ _ hr hu ValueIdx.ix0 e i
  have h2 : Ideal.cmp .olt (Max.max (x i) (-(x i))) (Ideal.ofBits .f32 0x7F800000#32) = 1#1 := h1
  have h3 := lt_of_cmp_olt h2
  rw [ofBits_pos_inf] at h3
  exact isReal_of_abs_lt_top h3

/-- The precondition read: every entry of each float input is a finite real. -/
theorem finite_of_pre
    (x0 : FVec Ideal Cert.Pre_finite_inputs.S100000x5 .f32) (x1 : IVec Cert.Pre_finite_inputs.S2x3200000 32)
    (x2 : FVec Ideal Cert.Pre_finite_inputs.S3200000x1 .f32) (x3 : FVec Ideal Cert.Pre_finite_inputs.S1x4 .f32)
    (x4 : IVec Cert.Pre_finite_inputs.S100000 32) (x5 : FVec Ideal Cert.Pre_finite_inputs.S64x5 .f32)
    (x6 : FVec Ideal Cert.Pre_finite_inputs.S64 .f32) (x7 : FVec Ideal Cert.Pre_finite_inputs.S4x64 .f32)
    (x8 : FVec Ideal Cert.Pre_finite_inputs.S4 .f32)
    (h : Cert.Pre_finite_inputs.fn (F := Ideal) x0 x1 x2 x3 x4 x5 x6 x7 x8 = fun _ => 1#1) :
    (∀ i, IsReal (x0 i)) ∧ (∀ i, IsReal (x2 i)) ∧ (∀ i, IsReal (x5 i)) ∧ (∀ i, IsReal (x6 i))
      ∧ (∀ i, IsReal (x7 i)) ∧ (∀ i, IsReal (x8 i)) := by
  have h0 := congrFun h ValueIdx.ix0
  unfold Cert.Pre_finite_inputs.fn Cert.Pre_finite_inputs.fn_part1 at h0
  dsimp only at h0
  obtain ⟨h0, e8⟩ := IntOp.andi_eq_one.1 (h0 : IntOp.andi _ _ = 1#1)
  obtain ⟨h0, e7⟩ := IntOp.andi_eq_one.1 (h0 : IntOp.andi _ _ = 1#1)
  obtain ⟨h0, e6⟩ := IntOp.andi_eq_one.1 (h0 : IntOp.andi _ _ = 1#1)
  obtain ⟨h0, e5⟩ := IntOp.andi_eq_one.1 (h0 : IntOp.andi _ _ = 1#1)
  obtain ⟨h0, _⟩ := IntOp.andi_eq_one.1 (h0 : IntOp.andi _ _ = 1#1)
  obtain ⟨e0, e2⟩ := IntOp.andi_eq_one.1 (h0 : IntOp.andi _ _ = 1#1)
  exact ⟨all_isReal x0 _ _ _ e0, all_isReal x2 _ _ _ e2, all_isReal x5 _ _ _ e5, all_isReal x6 _ _ _ e6,
    all_isReal x7 _ _ _ e7, all_isReal x8 _ _ _ e8⟩

/-! ## Shape operations and the scatter, over any shapes -/

/-- Every entry of a concatenation is an entry of one of its operands. -/
theorem concatenate_all {α : Type} (P : α → Prop) (t : Shape) (a : Fin t.rank)
    (xs : List ((s : Shape) × (s.Idx → α))) (h : Shape.Concatenates (xs.map (·.1)) t a)
    (hP : ∀ p ∈ xs, ∀ i, P (p.2 i)) (j : t.Idx) : P (concatenate t a xs h j) := by
  unfold concatenate
  exact hP _ (List.getElem_mem _) _

/-- Every entry of a gather is an entry of its operand. -/
theorem gather_all {α : Type} (P : α → Prop) {s si t : Shape} {w : Nat} (d : GatherDims s si t) (x : s.Idx → α)
    (idx : IVec si w) (hx : ∀ i, P (x i)) (j : t.Idx) : P (Host.gather d x idx j) :=
  hx _

/-- The accumulating scatter of finite reals into finite reals has finite real entries: each is an operand
    entry plus a finite sum of update entries, whichever updates land there. -/
theorem hostScatterAdd_isReal {s si su : Shape} (d : ScatterDims s si su) {w : Nat} (x : s.Idx → EReal)
    (idx : IVec si w) (upd : su.Idx → EReal) (hx : ∀ i, IsReal (x i)) (hu : ∀ j, IsReal (upd j)) (i : s.Idx) :
    IsReal (Ideal.hostScatterAdd d x idx upd i) := by
  unfold Ideal.hostScatterAdd
  exact (hx i).add (IsReal.sum _ _ fun j _ => hu j)

/-- The same for the host's scatter-add operation at the ideal floats. -/
theorem scatterAdd_isReal {s si su : Shape} {w : Nat} (d : ScatterDims s si su) (x : FVec Ideal s .f32)
    (idx : IVec si w) (upd : FVec Ideal su .f32) (hx : ∀ i, IsReal (x i)) (hu : ∀ j, IsReal (upd j)) (i : s.Idx) :
    IsReal (Host.scatterAdd d x idx upd i) :=
  hostScatterAdd_isReal d x idx upd hx hu i

/-! ## Scalar facts -/

/-- The f32 word `0x3F800000` denotes the real `1`. -/
theorem ofBits_one : Ideal.ofBits .f32 0x3F800000#32 = ((1 : ℝ) : EReal) := by
  simp [Ideal.ofBits, Ideal.ieee, -EReal.coe_mul]; norm_num

/-- A one-bit "greater than" that came out 1 says the strict order holds. -/
theorem lt_of_cmp_ogt {a b : EReal} (h : Ideal.cmp .ogt a b = 1#1) : b < a := by
  by_contra hn
  simp [Ideal.cmp, hn] at h

/-- The reciprocal square root of a positive real `r` is the finite real `(√r)⁻¹`. -/
theorem rsqrt_isReal_of_pos {r : ℝ} (hr : 0 < r) : IsReal (Ideal.rsqrt (r : EReal)) := by
  rw [Ideal.rsqrt_coe, if_neg (not_lt.2 hr.le), if_neg hr.ne']
  exact isReal_coe _

/-- A select on a bit other than 1 is its second operand. -/
theorem select_of_ne_one {α : Type} {c : BitVec 1} (a b : α) (h : ¬ c = 1#1) : Scalar.select c a b = b :=
  if_neg h

/-! ## The reference's stages, from the edge weights to the edge coefficients -/

section Stages

open Cert.ReferenceIdeal Cert.ReferenceIdeal.Read

variable (x1 : (⟨Cert.ReferenceIdeal.S2x3200000, .i32⟩ : BufTy).Contents (Elt Ideal))
  (x2 : (⟨Cert.ReferenceIdeal.S3200000x1, .f32⟩ : BufTy).Contents (Elt Ideal))

/-- The given weights, reshaped, are finite. -/
theorem v7_isReal (h2 : ∀ i, IsReal (x2 i)) (i : S3200000.Idx) : IsReal (val_main_v7 (F := Ideal) x2 i) := by
  rw [val_main_v7_apply]; exact h2 _

/-- The self-loop weights are all `1`. -/
theorem v8_isReal (i : S100000.Idx) : IsReal (val_main_v8 (F := Ideal) i) := by
  rw [val_main_v8_apply, val_main_cst_apply]
  exact ⟨1, ofBits_one⟩

/-- The edge weights, the given ones followed by the ones of the self loops, are finite. -/
theorem v9_isReal (h2 : ∀ i, IsReal (x2 i)) (i : S3300000.Idx) : IsReal (val_main_v9 (F := Ideal) x2 i) := by
  unfold val_main_v9
  refine concatenate_all IsReal _ _ _ _ ?_ i
  intro p hp
  rcases List.mem_cons.1 hp with rfl | hp
  · exact v7_isReal x2 h2
  rcases List.mem_cons.1 hp with rfl | hp
  · exact v8_isReal
  · exact absurd hp List.not_mem_nil

/-- The accumulator the degrees are scattered into starts at zero. -/
theorem v10_isReal (i : S100000.Idx) : IsReal (val_main_v10 (F := Ideal) i) := by
  rw [val_main_v10_apply, val_main_cst_0_apply]
  exact isReal_ofBits_zero

/-- A node's degree, zero plus a finite sum of edge weights, is finite. -/
theorem v12_isReal (h9 : ∀ i, IsReal (val_main_v9 (F := Ideal) x2 i)) (i : S100000.Idx) :
    IsReal (val_main_v12 (F := Ideal) x1 x2 i) := by
  unfold val_main_v12
  exact scatterAdd_isReal _ _ _ _ v10_isReal h9 i

/-- The first threshold the degrees are compared with is zero. -/
theorem v13_eq (i : S100000.Idx) : val_main_v13 (F := Ideal) i = 0 := by
  rw [val_main_v13_apply, val_main_cst_1_apply, Ideal.ofBits_def]
  exact Ideal.ofBits_zero_f32

/-- The two thresholds are the same word. -/
theorem v15_eq_v13 (i : S100000.Idx) : val_main_v15 (F := Ideal) i = val_main_v13 (F := Ideal) i := by
  rw [val_main_v15_apply, val_main_cst_2_apply, val_main_v13_apply, val_main_cst_1_apply]

/-- The two "degree is positive" masks are the same comparison of the same operands. -/
theorem v16_eq_v14 (i : S100000.Idx) :
    val_main_v16 (F := Ideal) x1 x2 i = val_main_v14 (F := Ideal) x1 x2 i := by
  rw [val_main_v16_apply, val_main_v14_apply, v15_eq_v13]

/-- A node's normalisation factor is finite. Where the mask is 1 the degree is a positive real `r`, the guarded
    degree is `r` itself (the two masks agree), and the factor is `(√r)⁻¹`; elsewhere the factor is zero. -/
theorem v19_isReal (h12 : ∀ i, IsReal (val_main_v12 (F := Ideal) x1 x2 i)) (i : S100000.Idx) :
    IsReal (val_main_v19 (F := Ideal) x1 x2 i) := by
  rw [val_main_v19_apply]
  by_cases hc : val_main_v14 (F := Ideal) x1 x2 i = 1#1
  · have hc' := hc
    rw [val_main_v14_apply, Ideal.cmpf_def, v13_eq] at hc'
    have hpos : (0 : EReal) < val_main_v12 (F := Ideal) x1 x2 i := lt_of_cmp_ogt hc'
    have e17 : val_main_v17 (F := Ideal) x1 x2 i = val_main_v12 (F := Ideal) x1 x2 i := by
      rw [val_main_v17_apply, v16_eq_v14, hc, ValueIdx.select_one]
    rw [hc, ValueIdx.select_one, val_main_v18_apply, Ideal.hostUnary_rsqrt_def, e17]
    obtain ⟨r, hr⟩ := h12 i
    rw [hr] at hpos ⊢
    exact rsqrt_isReal_of_pos (EReal.coe_pos.1 hpos)
  · rw [select_of_ne_one _ _ hc, val_main_call1_v1_apply, val_main_call1_v0_apply, val_main_cst_4_apply,
      Ideal.ofBits_def]
    exact isReal_ofBits_zero

/-- The factor of an edge's first end node is an entry of the factors. -/
theorem v26_isReal (h19 : ∀ i, IsReal (val_main_v19 (F := Ideal) x1 x2 i)) (j : S3300000.Idx) :
    IsReal (val_main_v26 (F := Ideal) x1 x2 j) := by
  unfold val_main_v26
  exact gather_all IsReal _ _ _ h19 j

/-- The factor of an edge's second end node is an entry of the factors. -/
theorem v34_isReal (h19 : ∀ i, IsReal (val_main_v19 (F := Ideal) x1 x2 i)) (j : S3300000.Idx) :
    IsReal (val_main_v34 (F := Ideal) x1 x2 j) := by
  unfold val_main_v34
  exact gather_all IsReal _ _ _ h19 j

/-- An edge's coefficient, the product of a factor, its weight and a factor, is finite. -/
theorem v35_isReal (h9 : ∀ i, IsReal (val_main_v9 (F := Ideal) x2 i))
    (h19 : ∀ i, IsReal (val_main_v19 (F := Ideal) x1 x2 i)) (j : S3300000.Idx) :
    IsReal (val_main_v35 (F := Ideal) x1 x2 j) := by
  rw [val_main_v35_apply, val_main_v27_apply, Ideal.mulf_def, Ideal.mulf_def]
  exact ((v26_isReal x1 x2 h19 j).mul (h9 j)).mul (v34_isReal x1 x2 h19 j)

end Stages

/-- An edge's coefficient is a finite real when the given edge weights are. -/
theorem coeff_isReal
    (x1 : (⟨Cert.ReferenceIdeal.S2x3200000, .i32⟩ : BufTy).Contents (Elt Ideal))
    (x2 : (⟨Cert.ReferenceIdeal.S3200000x1, .f32⟩ : BufTy).Contents (Elt Ideal))
    (h2 : ∀ i, IsReal (x2 i)) (e : Cert.ReferenceIdeal.S3300000.Idx) :
    IsReal (Cert.ReferenceIdeal.Read.val_main_v35 (F := Ideal) x1 x2 e) :=
  v35_isReal x1 x2 (v9_isReal x2 h2) (v19_isReal x1 x2 (v12_isReal x1 x2 (v9_isReal x2 h2))) e

end Cert.Finite

end
-- ==== Proof.RMatch.lean ====
/-
  The kernel program's host operations are the reference's. Both programs append the self-loops, wrap negative node
  numbers, compute the degrees, the normalisation factors and the edge coefficients by the same operations on the same
  arguments; the reference computes the factors and the coefficients twice, once per layer, by the same operations.
  Each lemma states one such coincidence between the kernel side's named term and a stage of the reference; each is
  by unfolding the two sides to the same operations of the same operands.
-/
import proofs.«408969_j82918638616893_3_alg».proof.Proof.Gen.ReferenceIdeal.Read
import proofs.«408969_j82918638616893_3_alg».proof.Proof.KSpec
import Idealize.ShloMosaic.PureOps.Ideal

noncomputable section

namespace Cert.RMatch

open Idealize.ShloMosaic

variable (a1 : (⟨Cert.ReferenceIdeal.S2x3200000, .i32⟩ : BufTy).Contents (Elt Ideal)) (a2 : (⟨Cert.ReferenceIdeal.S3200000x1, .f32⟩ : BufTy).Contents (Elt Ideal))

/-- The first layer's gather indices: the wrapped source list. -/
theorem wrap_src1 : Cert.KernelIdeal.KSpec.wrapIdx (Cert.ReferenceIdeal.Read.val_main_v3 (F := Ideal) a1) = Cert.ReferenceIdeal.Read.val_main_v43 (F := Ideal) a1 := by
  unfold Cert.KernelIdeal.KSpec.wrapIdx Cert.ReferenceIdeal.Read.val_main_v43 Cert.ReferenceIdeal.Read.val_main_v42 Cert.ReferenceIdeal.Read.val_main_v39 Cert.ReferenceIdeal.Read.val_main_v41 Cert.ReferenceIdeal.Read.val_main_v38 Cert.ReferenceIdeal.Read.val_main_v40 Cert.ReferenceIdeal.Read.val_main_c_8 Cert.ReferenceIdeal.Read.val_main_c_9
  generalize Cert.ReferenceIdeal.Read.val_main_v3 (F := Ideal) a1 = X
  rfl

/-- The second layer's gather indices: the wrapped source list again. -/
theorem wrap_src2 : Cert.KernelIdeal.KSpec.wrapIdx (Cert.ReferenceIdeal.Read.val_main_v3 (F := Ideal) a1) = Cert.ReferenceIdeal.Read.val_main_v88 (F := Ideal) a1 := by
  unfold Cert.KernelIdeal.KSpec.wrapIdx Cert.ReferenceIdeal.Read.val_main_v88 Cert.ReferenceIdeal.Read.val_main_v87 Cert.ReferenceIdeal.Read.val_main_v84 Cert.ReferenceIdeal.Read.val_main_v86 Cert.ReferenceIdeal.Read.val_main_v83 Cert.ReferenceIdeal.Read.val_main_v85 Cert.ReferenceIdeal.Read.val_main_c_20 Cert.ReferenceIdeal.Read.val_main_c_21
  generalize Cert.ReferenceIdeal.Read.val_main_v3 (F := Ideal) a1 = X
  rfl

/-- The first layer's scatter indices: the target list as a column. -/
theorem col_dst1 : Cert.KernelIdeal.KSpec.colIdx (Cert.ReferenceIdeal.Read.val_main_v6 (F := Ideal) a1) = Cert.ReferenceIdeal.Read.val_main_v49 (F := Ideal) a1 := by
  unfold Cert.KernelIdeal.KSpec.colIdx Cert.ReferenceIdeal.Read.val_main_v49
  generalize Cert.ReferenceIdeal.Read.val_main_v6 (F := Ideal) a1 = X
  rfl

/-- The second layer's scatter indices. -/
theorem col_dst2 : Cert.KernelIdeal.KSpec.colIdx (Cert.ReferenceIdeal.Read.val_main_v6 (F := Ideal) a1) = Cert.ReferenceIdeal.Read.val_main_v94 (F := Ideal) a1 := by
  unfold Cert.KernelIdeal.KSpec.colIdx Cert.ReferenceIdeal.Read.val_main_v94
  generalize Cert.ReferenceIdeal.Read.val_main_v6 (F := Ideal) a1 = X
  rfl

/-- The edge coefficients of the first layer. -/
theorem coeff1 : Cert.KernelIdeal.KSpec.coeff (Cert.ReferenceIdeal.Read.val_main_v19 (F := Ideal) a1 a2) (Cert.ReferenceIdeal.Read.val_main_v3 (F := Ideal) a1) (Cert.ReferenceIdeal.Read.val_main_v6 (F := Ideal) a1) (Cert.ReferenceIdeal.Read.val_main_v9 (F := Ideal) a2)
    = Cert.ReferenceIdeal.Read.val_main_v35 (F := Ideal) a1 a2 := by
  unfold Cert.KernelIdeal.KSpec.coeff Cert.KernelIdeal.KSpec.wrapIdx Cert.ReferenceIdeal.Read.val_main_v35 Cert.ReferenceIdeal.Read.val_main_v27 Cert.ReferenceIdeal.Read.val_main_v34 Cert.ReferenceIdeal.Read.val_main_v26 Cert.ReferenceIdeal.Read.val_main_v33 Cert.ReferenceIdeal.Read.val_main_v25 Cert.ReferenceIdeal.Read.val_main_v32 Cert.ReferenceIdeal.Read.val_main_v24 Cert.ReferenceIdeal.Read.val_main_v31 Cert.ReferenceIdeal.Read.val_main_v29 Cert.ReferenceIdeal.Read.val_main_v23 Cert.ReferenceIdeal.Read.val_main_v21 Cert.ReferenceIdeal.Read.val_main_v30 Cert.ReferenceIdeal.Read.val_main_v28 Cert.ReferenceIdeal.Read.val_main_v22 Cert.ReferenceIdeal.Read.val_main_v20 Cert.ReferenceIdeal.Read.val_main_c Cert.ReferenceIdeal.Read.val_main_c_5 Cert.ReferenceIdeal.Read.val_main_c_6 Cert.ReferenceIdeal.Read.val_main_c_7
  generalize Cert.ReferenceIdeal.Read.val_main_v19 (F := Ideal) a1 a2 = D
  generalize Cert.ReferenceIdeal.Read.val_main_v3 (F := Ideal) a1 = S
  generalize Cert.ReferenceIdeal.Read.val_main_v6 (F := Ideal) a1 = T
  generalize Cert.ReferenceIdeal.Read.val_main_v9 (F := Ideal) a2 = W
  rfl

/-- The reference's second computation of the normalisation factors is its first. -/
theorem factor2 : Cert.ReferenceIdeal.Read.val_main_v64 (F := Ideal) a1 a2 = Cert.ReferenceIdeal.Read.val_main_v19 (F := Ideal) a1 a2 := by
  unfold Cert.ReferenceIdeal.Read.val_main_v64 Cert.ReferenceIdeal.Read.val_main_v63 Cert.ReferenceIdeal.Read.val_main_v62 Cert.ReferenceIdeal.Read.val_main_v61 Cert.ReferenceIdeal.Read.val_main_v59 Cert.ReferenceIdeal.Read.val_main_v57 Cert.ReferenceIdeal.Read.val_main_v55 Cert.ReferenceIdeal.Read.val_main_v56 Cert.ReferenceIdeal.Read.val_main_v58 Cert.ReferenceIdeal.Read.val_main_v60 Cert.ReferenceIdeal.Read.val_main_call3_v1 Cert.ReferenceIdeal.Read.val_main_call3_v0 Cert.ReferenceIdeal.Read.val_main_call4_v1 Cert.ReferenceIdeal.Read.val_main_call4_v0 Cert.ReferenceIdeal.Read.val_main_cst_11 Cert.ReferenceIdeal.Read.val_main_cst_12 Cert.ReferenceIdeal.Read.val_main_cst_13 Cert.ReferenceIdeal.Read.val_main_cst_14 Cert.ReferenceIdeal.Read.val_main_cst_15
    Cert.ReferenceIdeal.Read.val_main_v19 Cert.ReferenceIdeal.Read.val_main_v18 Cert.ReferenceIdeal.Read.val_main_v17 Cert.ReferenceIdeal.Read.val_main_v16 Cert.ReferenceIdeal.Read.val_main_v14 Cert.ReferenceIdeal.Read.val_main_v12 Cert.ReferenceIdeal.Read.val_main_v10 Cert.ReferenceIdeal.Read.val_main_v11 Cert.ReferenceIdeal.Read.val_main_v13 Cert.ReferenceIdeal.Read.val_main_v15 Cert.ReferenceIdeal.Read.val_main_call0_v1 Cert.ReferenceIdeal.Read.val_main_call0_v0 Cert.ReferenceIdeal.Read.val_main_call1_v1 Cert.ReferenceIdeal.Read.val_main_call1_v0 Cert.ReferenceIdeal.Read.val_main_cst_0 Cert.ReferenceIdeal.Read.val_main_cst_1 Cert.ReferenceIdeal.Read.val_main_cst_2 Cert.ReferenceIdeal.Read.val_main_cst_3 Cert.ReferenceIdeal.Read.val_main_cst_4
  generalize Cert.ReferenceIdeal.Read.val_main_v6 (F := Ideal) a1 = T
  generalize Cert.ReferenceIdeal.Read.val_main_v9 (F := Ideal) a2 = W
  rfl

/-- The reference's second computation of the edge coefficients is its first. -/
theorem coeff2 : Cert.ReferenceIdeal.Read.val_main_v80 (F := Ideal) a1 a2 = Cert.ReferenceIdeal.Read.val_main_v35 (F := Ideal) a1 a2 := by
  rw [← coeff1]
  unfold Cert.KernelIdeal.KSpec.coeff Cert.KernelIdeal.KSpec.wrapIdx Cert.ReferenceIdeal.Read.val_main_v80 Cert.ReferenceIdeal.Read.val_main_v72 Cert.ReferenceIdeal.Read.val_main_v79 Cert.ReferenceIdeal.Read.val_main_v71 Cert.ReferenceIdeal.Read.val_main_v78 Cert.ReferenceIdeal.Read.val_main_v70 Cert.ReferenceIdeal.Read.val_main_v77 Cert.ReferenceIdeal.Read.val_main_v69 Cert.ReferenceIdeal.Read.val_main_v76 Cert.ReferenceIdeal.Read.val_main_v74 Cert.ReferenceIdeal.Read.val_main_v68 Cert.ReferenceIdeal.Read.val_main_v66 Cert.ReferenceIdeal.Read.val_main_v75 Cert.ReferenceIdeal.Read.val_main_v73 Cert.ReferenceIdeal.Read.val_main_v67 Cert.ReferenceIdeal.Read.val_main_v65 Cert.ReferenceIdeal.Read.val_main_c_16 Cert.ReferenceIdeal.Read.val_main_c_17 Cert.ReferenceIdeal.Read.val_main_c_18 Cert.ReferenceIdeal.Read.val_main_c_19
  rw [factor2]
  generalize Cert.ReferenceIdeal.Read.val_main_v19 (F := Ideal) a1 a2 = D
  generalize Cert.ReferenceIdeal.Read.val_main_v3 (F := Ideal) a1 = S
  generalize Cert.ReferenceIdeal.Read.val_main_v6 (F := Ideal) a1 = T
  generalize Cert.ReferenceIdeal.Read.val_main_v9 (F := Ideal) a2 = W
  rfl

/-- The coefficients copied along the four columns of the second layer's messages. -/
theorem cols4_eq : Cert.KernelIdeal.KSpec.cols4 (Cert.ReferenceIdeal.Read.val_main_v80 (F := Ideal) a1 a2) = Cert.ReferenceIdeal.Read.val_main_v91 (F := Ideal) a1 a2 := by
  unfold Cert.KernelIdeal.KSpec.cols4 Cert.ReferenceIdeal.Read.val_main_v91 Cert.ReferenceIdeal.Read.val_main_v90
  generalize Cert.ReferenceIdeal.Read.val_main_v80 (F := Ideal) a1 a2 = N
  rfl

end Cert.RMatch

end
-- ==== Proof.LibRows.lean ====
/-
  A row gather and an accumulating row scatter, read at an index.

  A table of `N` rows and `K` columns is gathered at a column of `E` row numbers: result row `e` is the table's row
  whose number is start index `e` read as a signed integer and clamped into `[0, N - 1]`. The row depends on the
  indices alone, never on the width `K`. Updates of `E` rows are accumulated into a table of `N` rows: result entry
  `(i, k)` is the operand's entry plus the sum of the update entries `(e, k)` over the rows `e` whose start index,
  read as a signed integer and NOT clamped, is `i`; a start index outside `[0, N)` contributes nothing. Again the
  set of rows depends on the indices alone.
-/
import Idealize.ShloMosaic.PureOps.Ideal
import Idealize.ShloMosaic.PureOps.ShapeOps
import Idealize.ShloMosaic.Lib.ValueIdx

noncomputable section

namespace Cert.LibRows

open Idealize.ShloMosaic Idealize.ShloMosaic.ValueIdx
open scoped BigOperators

/-- The table row a gather's start index `e` names: the index read signed, clamped into `[0, N - 1]`. -/
def gRow {N E w : Nat} (hN : 0 < N) (idx : IVec ⟨2, ![E, 1]⟩ w) (e : Fin E) : Fin N :=
  ⟨min (idx (ix2 e (0 : Fin 1))).toInt.toNat (N - 1), by omega⟩

/-- A coordinate of a rank-2 index on an axis known to be axis 0 is the first coordinate. -/
private theorem ix2_val_eq0 {n0 n1 : Nat} (a : Fin n0) (b : Fin n1) (X : Fin (⟨2, ![n0, n1]⟩ : Shape).rank)
    (h : X = (0 : Fin 2)) : (ix2 a b X).val = a.val := by subst h; rfl

/-- A coordinate of a rank-2 index on an axis known to be axis 1 is the second coordinate. -/
private theorem ix2_val_eq1 {n0 n1 : Nat} (a : Fin n0) (b : Fin n1) (X : Fin (⟨2, ![n0, n1]⟩ : Shape).rank)
    (h : X = (1 : Fin 2)) : (ix2 a b X).val = b.val := by subst h; rfl

/-- The row gather at `(e, k)` is the table at `(gRow e, k)`. -/
theorem gather_rows {α : Type} {N E K w : Nat} (hN : 0 < N)
    (d : GatherDims ⟨2, ![N, K]⟩ ⟨2, ![E, 1]⟩ ⟨2, ![E, K]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (x : (⟨2, ![N, K]⟩ : Shape).Idx → α) (idx : IVec ⟨2, ![E, 1]⟩ w) (e : Fin E) (k : Fin K) :
    Host.gather d x idx (ix2 e k) = x (ix2 (gRow hN idx e) k) := by
  unfold Host.gather
  congr 1
  funext a
  apply Fin.ext
  have hb : ∀ a : Fin 2, a ∉ d.operandBatchingDims := by intro a; rw [hob]; exact List.not_mem_nil
  match a with
  | ⟨0, _⟩ =>
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    have hbd : ∀ a ∈ d.batchDims, a = (0 : Fin 2) := by
      intro a ha
      have h1 : a ∉ d.offsetDims := by
        have := (List.mem_filter.1 ha).2
        simpa using this
      rw [hoff, List.mem_singleton] at h1
      apply Fin.ext
      have h2 : a.val ≠ (1 : Nat) := fun h => h1 (Fin.ext h)
      have h3 : a.val < (2 : Nat) := a.isLt
      show a.val = (0 : Nat)
      omega
    show d.start (ix2 e k) idx 0 + d.batchCoord (ix2 e k) 0 + d.offCoord (ix2 e k) 0 = _
    rw [GatherDims.batchCoord_eq_zero _ _ _ (hb _), GatherDims.offCoord_eq_zero _ _ _ hk]
    simp only [Nat.add_zero]
    unfold GatherDims.start
    rw [dif_pos hm]
    show min (idx _).toInt.toNat (N - d.sliceSizes 0) = min (idx (ix2 e 0)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      exact ix2_val_eq0 e k _ (hbd _ (List.getElem_mem _))
    | ⟨1, _⟩ =>
      unfold GatherDims.siIdx
      rw [dif_pos (by rw [hivd])]
      apply Fin.ext
      show List.idxOf (0 : Fin 2) d.startIndexMap = 0
      rw [hsim]; simp
  | ⟨1, _⟩ =>
    have hm : (1 : Fin 2) ∉ d.startIndexMap := by rw [hsim]; simp
    have hk : (1 : Fin 2) ∈ d.sKept := by rw [GatherDims.mem_sKept, hcoll, hob]; simp
    have hod : ∀ a ∈ d.offsetDims, a = (1 : Fin 2) := by rw [hoff]; simp
    show d.start (ix2 e k) idx 1 + d.batchCoord (ix2 e k) 1 + d.offCoord (ix2 e k) 1 = _
    rw [GatherDims.batchCoord_eq_zero _ _ _ (hb _)]
    unfold GatherDims.start
    rw [dif_neg hm]
    unfold GatherDims.offCoord
    rw [dif_pos hk]
    simp only [Nat.zero_add, Nat.add_zero]
    exact ix2_val_eq1 e k _ (hod _ (List.getElem_mem _))

/-- The table row a scatter's start index `e` lands on: the index read signed, kept only when inside `[0, N)`. -/
def sRow? {N E w : Nat} (idx : IVec ⟨2, ![E, 1]⟩ w) (e : Fin E) : Option (Fin N) :=
  if h : 0 ≤ (idx (ix2 e (0 : Fin 1))).toInt ∧ (idx (ix2 e (0 : Fin 1))).toInt < (N : Int) then
    some ⟨(idx (ix2 e (0 : Fin 1))).toInt.toNat, by omega⟩
  else none

/-- The rows that land on table row `i`. -/
def rowsOn {N E w : Nat} (idx : IVec ⟨2, ![E, 1]⟩ w) (i : Fin N) : Finset (Fin E) :=
  Finset.univ.filter fun e => sRow? (N := N) idx e = some i

/-- The start on axis 0 of the row scatter is the row's start index read signed. -/
private theorem scatter_start0 {N E K w : Nat}
    (d : ScatterDims ⟨2, ![N, K]⟩ ⟨2, ![E, 1]⟩ ⟨2, ![E, K]⟩)
    (huw : d.updateWindowDims = [1]) (hsd : d.scatterDimsToOperandDims = [0]) (hivd : d.indexVectorDim = 1)
    (idx : IVec ⟨2, ![E, 1]⟩ w) (e : Fin E) (k : Fin K) :
    d.start (ix2 e k) idx (0 : Fin 2) = (idx (ix2 e (0 : Fin 1))).toInt := by
  have hm : (0 : Fin 2) ∈ d.scatterDimsToOperandDims := by rw [hsd]; exact List.mem_singleton.mpr rfl
  have hus : ∀ a ∈ d.uScatter, a = (0 : Fin 2) := by
    intro a ha
    have h1 : a ∉ d.updateWindowDims := by
      have := (List.mem_filter.1 ha).2
      simpa using this
    rw [huw, List.mem_singleton] at h1
    apply Fin.ext
    have h2 : a.val ≠ (1 : Nat) := fun h => h1 (Fin.ext h)
    have h3 : a.val < (2 : Nat) := a.isLt
    show a.val = (0 : Nat)
    omega
  unfold ScatterDims.start
  rw [dif_pos hm]
  congr 2
  funext b
  match b with
  | ⟨0, _⟩ =>
    unfold ScatterDims.siIdx
    rw [dif_neg (by rw [hivd]; simp)]
    unfold ScatterDims.siCoord
    apply Fin.ext
    simp only [Fin.val_cast]
    exact ix2_val_eq0 e k _ (hus _ (List.getElem_mem _))
  | ⟨1, _⟩ =>
    unfold ScatterDims.siIdx
    rw [dif_pos (by rw [hivd])]
    apply Fin.ext
    show List.idxOf (0 : Fin 2) d.scatterDimsToOperandDims = 0
    rw [hsd]; simp

/-- The start on axis 1 of the row scatter is 0: that axis is not start-indexed. -/
private theorem scatter_start1 {N E K w : Nat}
    (d : ScatterDims ⟨2, ![N, K]⟩ ⟨2, ![E, 1]⟩ ⟨2, ![E, K]⟩)
    (hsd : d.scatterDimsToOperandDims = [0])
    (idx : IVec ⟨2, ![E, 1]⟩ w) (j : (⟨2, ![E, K]⟩ : Shape).Idx) :
    d.start j idx (1 : Fin 2) = 0 := by
  unfold ScatterDims.start
  rw [dif_neg (by rw [hsd]; simp)]

/-- The window coordinate on axis 0 of the row scatter is 0: that axis is inserted. -/
private theorem scatter_window0 {N E K : Nat}
    (d : ScatterDims ⟨2, ![N, K]⟩ ⟨2, ![E, 1]⟩ ⟨2, ![E, K]⟩)
    (hiw : d.insertedWindowDims = [0]) (j : (⟨2, ![E, K]⟩ : Shape).Idx) :
    d.window j (0 : Fin 2) = 0 := by
  unfold ScatterDims.window
  rw [dif_neg (by simp [ScatterDims.sKept, Shape.kept, hiw])]

/-- The window coordinate on axis 1 of the row scatter is the update's column. -/
private theorem scatter_window1 {N E K : Nat}
    (d : ScatterDims ⟨2, ![N, K]⟩ ⟨2, ![E, 1]⟩ ⟨2, ![E, K]⟩)
    (huw : d.updateWindowDims = [1]) (hiw : d.insertedWindowDims = [0]) (e : Fin E) (k : Fin K) :
    d.window (ix2 e k) (1 : Fin 2) = k.val := by
  have hk : (1 : Fin 2) ∈ d.sKept := by simp [ScatterDims.sKept, Shape.kept, hiw]
  have huwd : ∀ a ∈ d.updateWindowDims, a = (1 : Fin 2) := by rw [huw]; simp
  unfold ScatterDims.window
  rw [dif_pos hk]
  exact ix2_val_eq1 e k _ (huwd _ (List.getElem_mem _))

/-- An update entry `(e', k')` lands on table entry `(i, k)` exactly when its row lands on `i` and its column is
    `k`: on axis 0 the landing coordinate is the start index read signed (the window coordinate there is 0), on axis 1
    it is the update's column (the start there is 0). -/
private theorem resultIdx?_eq_some_iff {N E K w : Nat}
    (d : ScatterDims ⟨2, ![N, K]⟩ ⟨2, ![E, 1]⟩ ⟨2, ![E, K]⟩)
    (huw : d.updateWindowDims = [1]) (hiw : d.insertedWindowDims = [0])
    (hsd : d.scatterDimsToOperandDims = [0]) (hivd : d.indexVectorDim = 1)
    (idx : IVec ⟨2, ![E, 1]⟩ w) (e' : Fin E) (k' : Fin K) (i : Fin N) (k : Fin K) :
    d.resultIdx? (ix2 e' k') idx = some (ix2 i k) ↔ sRow? (N := N) idx e' = some i ∧ k' = k := by
  have hv0 : d.start (ix2 e' k') idx (0 : Fin 2) + (d.window (ix2 e' k') (0 : Fin 2) : Int)
      = (idx (ix2 e' (0 : Fin 1))).toInt := by
    rw [scatter_start0 d huw hsd hivd idx e' k', scatter_window0 d hiw (ix2 e' k')]; simp
  have hv1 : d.start (ix2 e' k') idx (1 : Fin 2) + (d.window (ix2 e' k') (1 : Fin 2) : Int) = (k'.val : Int) := by
    rw [scatter_start1 d hsd idx (ix2 e' k'), scatter_window1 d huw hiw e' k']; simp
  have hk' : k'.val < K := k'.isLt
  have hi : i.val < N := i.isLt
  unfold ScatterDims.resultIdx? sRow?
  constructor
  · intro h
    split at h
    · next hall =>
      have hf := Option.some.inj h
      have h0 : (d.start (ix2 e' k') idx (0 : Fin 2) + (d.window (ix2 e' k') (0 : Fin 2) : Int)).toNat = i.val :=
        congrArg (fun f => (f (0 : Fin 2)).val) hf
      have h1 : (d.start (ix2 e' k') idx (1 : Fin 2) + (d.window (ix2 e' k') (1 : Fin 2) : Int)).toNat = k.val :=
        congrArg (fun f => (f (1 : Fin 2)).val) hf
      have ha0 : 0 ≤ d.start (ix2 e' k') idx (0 : Fin 2) + (d.window (ix2 e' k') (0 : Fin 2) : Int) ∧
          d.start (ix2 e' k') idx (0 : Fin 2) + (d.window (ix2 e' k') (0 : Fin 2) : Int) < (N : Int) := hall 0
      rw [hv0] at h0 ha0
      rw [hv1] at h1
      refine ⟨?_, ?_⟩
      · rw [dif_pos ha0]
        congr 1
        exact Fin.ext h0
      · apply Fin.ext
        omega
    · exact absurd h (by simp)
  · rintro ⟨hrow, rfl⟩
    split at hrow
    · next hc =>
      have hT : (idx (ix2 e' (0 : Fin 1))).toInt.toNat = i.val := congrArg Fin.val (Option.some.inj hrow)
      have hall : ∀ a, 0 ≤ d.start (ix2 e' k') idx a + (d.window (ix2 e' k') a : Int) ∧
          d.start (ix2 e' k') idx a + (d.window (ix2 e' k') a : Int) < ((⟨2, ![N, K]⟩ : Shape).size a : Int) := by
        intro a
        match a with
        | ⟨0, _⟩ =>
          show 0 ≤ d.start (ix2 e' k') idx (0 : Fin 2) + (d.window (ix2 e' k') (0 : Fin 2) : Int) ∧
            d.start (ix2 e' k') idx (0 : Fin 2) + (d.window (ix2 e' k') (0 : Fin 2) : Int) < (N : Int)
          rw [hv0]; exact hc
        | ⟨1, _⟩ =>
          show 0 ≤ d.start (ix2 e' k') idx (1 : Fin 2) + (d.window (ix2 e' k') (1 : Fin 2) : Int) ∧
            d.start (ix2 e' k') idx (1 : Fin 2) + (d.window (ix2 e' k') (1 : Fin 2) : Int) < (K : Int)
          rw [hv1]; omega
      rw [dif_pos hall]
      congr 1
      funext a
      apply Fin.ext
      match a with
      | ⟨0, _⟩ =>
        show (d.start (ix2 e' k') idx (0 : Fin 2) + (d.window (ix2 e' k') (0 : Fin 2) : Int)).toNat = i.val
        rw [hv0]; exact hT
      | ⟨1, _⟩ =>
        show (d.start (ix2 e' k') idx (1 : Fin 2) + (d.window (ix2 e' k') (1 : Fin 2) : Int)).toNat = k'.val
        rw [hv1]; omega
    · exact absurd hrow (by simp)

/-- The accumulating row scatter at `(i, k)`: the operand's entry plus the updates `(e, k)` of the rows landing on `i`. -/
theorem scatterAdd_rows {N E K w : Nat}
    (d : ScatterDims ⟨2, ![N, K]⟩ ⟨2, ![E, 1]⟩ ⟨2, ![E, K]⟩)
    (huw : d.updateWindowDims = [1]) (hiw : d.insertedWindowDims = [0])
    (hsd : d.scatterDimsToOperandDims = [0]) (hivd : d.indexVectorDim = 1)
    (x : (⟨2, ![N, K]⟩ : Shape).Idx → EReal) (idx : IVec ⟨2, ![E, 1]⟩ w)
    (u : (⟨2, ![E, K]⟩ : Shape).Idx → EReal) (i : Fin N) (k : Fin K) :
    Ideal.hostScatterAdd d x idx u (ix2 i k) = x (ix2 i k) + ∑ e ∈ rowsOn idx i, u (ix2 e k) := by
  unfold Ideal.hostScatterAdd
  congr 1
  rw [Finset.sum_filter, sum_idx2]
  unfold rowsOn
  rw [Finset.sum_filter]
  refine Finset.sum_congr rfl fun e' _ => ?_
  have hterm : ∀ k' : Fin K,
      (if d.resultIdx? (ix2 e' k') idx = some (ix2 i k) then u (ix2 e' k') else 0)
        = if k' = k then (if sRow? (N := N) idx e' = some i then u (ix2 e' k) else 0) else 0 := by
    intro k'
    by_cases hk : k' = k
    · subst hk
      rw [if_pos rfl]
      exact if_congr ((resultIdx?_eq_some_iff d huw hiw hsd hivd idx e' k' i k').trans (and_iff_left rfl)) rfl rfl
    · rw [if_neg hk, if_neg]
      intro h
      exact hk ((resultIdx?_eq_some_iff d huw hiw hsd hivd idx e' k' i k).1 h).2
  rw [Finset.sum_congr rfl (fun k' _ => hterm k'), Finset.sum_ite_eq' Finset.univ k, if_pos (Finset.mem_univ k)]

end Cert.LibRows

end
-- ==== Proof.Algebra.lean ====
/-
  Aggregating before or after a linear map. For a finite set `S` of edges, row features `x e k` (`k < 5`), edge
  coefficients `n e` and one column `W k` of a weight matrix, all finite reals,
      ∑ k, (∑ e ∈ S, x e k · n e) · W k  =  ∑ e ∈ S, (∑ k, x e k · W k) · n e :
  both sides are the double sum of `x e k · n e · W k`, by distributivity and an exchange of the two finite sums.
  Distributivity fails at the infinities of the extended reals, so finiteness of all three families is used.
  Read through the row gather and the accumulating row scatter (whose rows depend on the indices alone, not on the
  width), this says: scattering the gathered, scaled rows of `x` and then applying the first layer is the same array
  as applying the weight first, gathering, scaling, scattering, adding the bias and taking the maximum with zero.
-/
import proofs.«408969_j82918638616893_3_alg».proof.Proof.LibRows
import proofs.«408969_j82918638616893_3_alg».proof.Proof.LibReal
import proofs.«408969_j82918638616893_3_alg».proof.Proof.Spec
import Idealize.ShloMosaic.PureOps.Ideal
import Idealize.ShloMosaic.PureOps.Contract
import Idealize.ShloMosaic.PureOps.ShapeOps
import Idealize.ShloMosaic.Lib.ValueIdx

noncomputable section

namespace Cert.Algebra

open Idealize.ShloMosaic Idealize.ShloMosaic.ValueIdx Cert.LibReal Cert.LibRows
open scoped BigOperators

/-- Over the reals: the sum over columns of aggregated features times a weight column is the aggregate of the
    projected rows. -/
theorem real_swap {ι : Type*} (S : Finset ι) (x : ι → Fin 5 → ℝ) (n : ι → ℝ) (W : Fin 5 → ℝ) :
    ∑ k : Fin 5, (∑ e ∈ S, x e k * n e) * W k = ∑ e ∈ S, (∑ k : Fin 5, x e k * W k) * n e := by
  simp only [Finset.sum_mul]
  rw [Finset.sum_comm]
  exact Finset.sum_congr rfl fun e _ => Finset.sum_congr rfl fun k _ => by ring

/-- The same over the extended reals, for finite entries; the accumulations start from zero. -/
theorem ereal_swap {ι : Type*} (S : Finset ι) (x : ι → Fin 5 → EReal) (n : ι → EReal) (W : Fin 5 → EReal)
    (hx : ∀ e k, IsReal (x e k)) (hn : ∀ e, IsReal (n e)) (hW : ∀ k, IsReal (W k)) :
    ∑ k : Fin 5, (0 + ∑ e ∈ S, x e k * n e) * W k = 0 + ∑ e ∈ S, (∑ k : Fin 5, x e k * W k) * n e := by
  choose xr hxr using hx
  choose nr hnr using hn
  choose Wr hWr using hW
  have hin : ∀ k, ∑ e ∈ S, x e k * n e = ((∑ e ∈ S, xr e k * nr e : ℝ) : EReal) := fun k =>
    sum_eq_coe_sum S _ _ fun e _ => by rw [hxr, hnr, EReal.coe_mul]
  have hrow : ∀ e, ∑ k : Fin 5, x e k * W k = ((∑ k : Fin 5, xr e k * Wr k : ℝ) : EReal) := fun e =>
    sum_eq_coe_sum Finset.univ _ _ fun k _ => by rw [hxr, hWr, EReal.coe_mul]
  have hl : ∑ k : Fin 5, (0 + ∑ e ∈ S, x e k * n e) * W k
      = ((∑ k : Fin 5, (∑ e ∈ S, xr e k * nr e) * Wr k : ℝ) : EReal) :=
    sum_eq_coe_sum Finset.univ _ _ fun k _ => by rw [zero_add, hin, hWr, EReal.coe_mul]
  have hr : ∑ e ∈ S, (∑ k : Fin 5, x e k * W k) * n e
      = ((∑ e ∈ S, (∑ k : Fin 5, xr e k * Wr k) * nr e : ℝ) : EReal) :=
    sum_eq_coe_sum S _ _ fun e _ => by rw [hrow, hnr, EReal.coe_mul]
  rw [hl, zero_add, hr, real_swap]

section Layer1

variable
  (dG5 : GatherDims ⟨2, ![100000, 5]⟩ ⟨2, ![3300000, 1]⟩ ⟨2, ![3300000, 5]⟩)
  (dG64 : GatherDims ⟨2, ![100000, 64]⟩ ⟨2, ![3300000, 1]⟩ ⟨2, ![3300000, 64]⟩)
  (dS5 : ScatterDims ⟨2, ![100000, 5]⟩ ⟨2, ![3300000, 1]⟩ ⟨2, ![3300000, 5]⟩)
  (dS64 : ScatterDims ⟨2, ![100000, 64]⟩ ⟨2, ![3300000, 1]⟩ ⟨2, ![3300000, 64]⟩)

/-- The first layer of the aggregated features is the aggregate of the projected rows, plus the bias, cut at zero.
    `x` the node features, `Wt` the `5 × 64` weight, `P` their product, `nrm` the edge coefficients (`n5`, `n64` their
    copies along the columns), `z5`, `z64`, `zr` zero arrays, `bb` the bias copied along the rows. -/
theorem layer1
    (hG5 : dG5.offsetDims = [1] ∧ dG5.collapsedSliceDims = [0] ∧ dG5.operandBatchingDims = []
      ∧ dG5.startIndicesBatchingDims = [] ∧ dG5.startIndexMap = [0] ∧ dG5.indexVectorDim = 1)
    (hG64 : dG64.offsetDims = [1] ∧ dG64.collapsedSliceDims = [0] ∧ dG64.operandBatchingDims = []
      ∧ dG64.startIndicesBatchingDims = [] ∧ dG64.startIndexMap = [0] ∧ dG64.indexVectorDim = 1)
    (hS5 : dS5.updateWindowDims = [1] ∧ dS5.insertedWindowDims = [0] ∧ dS5.scatterDimsToOperandDims = [0]
      ∧ dS5.indexVectorDim = 1)
    (hS64 : dS64.updateWindowDims = [1] ∧ dS64.insertedWindowDims = [0] ∧ dS64.scatterDimsToOperandDims = [0]
      ∧ dS64.indexVectorDim = 1)
    (x : FVec Ideal ⟨2, ![100000, 5]⟩ .f32) (hx : ∀ i, IsReal (x i))
    (Wt : FVec Ideal ⟨2, ![5, 64]⟩ .f32) (hW : ∀ i, IsReal (Wt i))
    (b : FVec Ideal ⟨1, ![64]⟩ .f32)
    (src dst : IVec ⟨2, ![3300000, 1]⟩ 32)
    (nrm : Fin 3300000 → EReal) (hn : ∀ e, IsReal (nrm e))
    (n5 : FVec Ideal ⟨2, ![3300000, 5]⟩ .f32) (hn5 : ∀ e k, n5 (ix2 e k) = nrm e)
    (n64 : FVec Ideal ⟨2, ![3300000, 64]⟩ .f32) (hn64 : ∀ e f, n64 (ix2 e f) = nrm e)
    (z5 : FVec Ideal ⟨2, ![100000, 5]⟩ .f32) (hz5 : ∀ i, z5 i = 0)
    (z64 : FVec Ideal ⟨2, ![100000, 64]⟩ .f32) (hz64 : ∀ i, z64 i = 0)
    (P : FVec Ideal ⟨2, ![100000, 64]⟩ .f32)
    (hP : ∀ r c, P (ix2 r c) = ∑ k : Fin 5, x (ix2 r k) * Wt (ix2 k c))
    (zr : FVec Ideal ⟨2, ![100000, 64]⟩ .f32) (hzr : ∀ i, zr i = 0)
    (bb : FVec Ideal ⟨2, ![100000, 64]⟩ .f32) (hbb : ∀ r c, bb (ix2 r c) = b (ix1 c)) :
    Cert.Spec.lin0 (Host.scatterAdd (F := Ideal) dS5 z5 dst (mulf (Host.gather dG5 x src) n5)) Wt b
      = maximumf (addf (Host.scatterAdd (F := Ideal) dS64 z64 dst (mulf (Host.gather dG64 P src) n64)) bb) zr := by
  obtain ⟨g1, g2, g3, g4, g5, g6⟩ := hG5
  obtain ⟨g1', g2', g3', g4', g5', g6'⟩ := hG64
  obtain ⟨s1, s2, s3, s4⟩ := hS5
  obtain ⟨s1', s2', s3', s4'⟩ := hS64
  have hN : 0 < 100000 := by decide
  funext j
  obtain ⟨r, c, rfl⟩ : ∃ (r : Fin 100000) (c : Fin 64), j = ix2 r c := ⟨j 0, j 1, eq_ix2 j⟩
  rw [Cert.Spec.lin0_ix2]
  unfold Cert.Spec.lin0At
  show max ((∑ k : Fin 5, Ideal.hostScatterAdd dS5 z5 dst (fun i => Host.gather dG5 x src i * n5 i) (ix2 r k)
        * Wt (ix2 k c)) + b (ix1 c)) 0
      = max (Ideal.hostScatterAdd dS64 z64 dst (fun i => Host.gather dG64 P src i * n64 i) (ix2 r c) + bb (ix2 r c))
        (zr (ix2 r c))
  rw [hzr, hbb, scatterAdd_rows dS64 s1' s2' s3' s4']
  simp only [scatterAdd_rows dS5 s1 s2 s3 s4, gather_rows hN dG5 g1 g2 g3 g4 g5 g6,
    gather_rows hN dG64 g1' g2' g3' g4' g5' g6', hn5, hn64, hz5, hz64, hP]
  refine congrArg (fun t => max (t + b (ix1 c)) 0) ?_
  exact ereal_swap (rowsOn dst r) (fun e k => x (ix2 (gRow hN src e) k)) nrm (fun k => Wt (ix2 k c))
    (fun e k => hx _) hn (fun k => hW _)

end Layer1

end Cert.Algebra

end
-- ==== Proof.Bridge.lean ====
/-
  The kernel program's result is the reference's. With the host operations identified (the edge lists, the weights,
  the factors, the coefficients: the same operations on the same arguments), two facts remain. FIRST LAYER: the
  kernel accumulates the scaled five-column feature rows over the edges and then applies the `5 × 64` weight, the
  bias and the cut at zero; the reference applies the weight to every node first, then gathers, scales and accumulates
  the sixty-four-column rows, adds the bias and cuts at zero. These agree because the accumulation over the edges
  landing on a node commutes with the weight (finite entries: the inputs by the precondition, the coefficients by
  their construction). SECOND LAYER: both apply the `64 × 4` weight to the same hidden features; the kernel's dense
  layer adds a zero bias, which changes nothing. The remaining gather, scaling, accumulation and bias are the same
  operations of equal operands.
-/
import proofs.«408969_j82918638616893_3_alg».proof.Proof.Gen.ReferenceIdeal.Read
import proofs.«408969_j82918638616893_3_alg».proof.Proof.KSpec
import proofs.«408969_j82918638616893_3_alg».proof.Proof.RMatch
import proofs.«408969_j82918638616893_3_alg».proof.Proof.Algebra
import proofs.«408969_j82918638616893_3_alg».proof.Proof.Finite
import Idealize.ShloMosaic.Lib.Pipeline.Value
import Idealize.ShloMosaic.Lib.ValueIdx
import Idealize.ShloMosaic.PureOps.Ideal.Laws

noncomputable section

namespace Cert.Bridge

open Idealize.ShloMosaic Idealize.ShloMosaic.ValueIdx Cert.LibReal
open Cert.ReferenceIdeal Cert.ReferenceIdeal.Read
open scoped BigOperators

variable (a0 : (⟨S100000x5, .f32⟩ : BufTy).Contents (Elt Ideal)) (a1 : (⟨S2x3200000, .i32⟩ : BufTy).Contents (Elt Ideal))
  (a2 : (⟨S3200000x1, .f32⟩ : BufTy).Contents (Elt Ideal)) (a5 : (⟨S64x5, .f32⟩ : BufTy).Contents (Elt Ideal))
  (a6 : (⟨S64, .f32⟩ : BufTy).Contents (Elt Ideal)) (a7 : (⟨S4x64, .f32⟩ : BufTy).Contents (Elt Ideal))
  (a8 : (⟨S4, .f32⟩ : BufTy).Contents (Elt Ideal))

/-! ## Arrays read at an index -/

/-- The coefficients copied along five columns, at `(e, k)`: the coefficient of edge `e`. -/
theorem cols5_apply (N : FVec Ideal Cert.KernelIdeal.S3300000 .f32) (e : Fin 3300000) (k : Fin 5) :
    Cert.KernelIdeal.KSpec.cols5 N (ix2 e k) = N (ix1 e) := by
  unfold Cert.KernelIdeal.KSpec.cols5
  refine (broadcastInDim_apply _ _ _ (ix2 e k) (ix2 e (0 : Fin 1)) ?_).trans ?_
  · intro a
    match a with
    | ⟨0, _⟩ => show e.val = if (3300000 : Nat) = 1 then 0 else e.val; rw [if_neg (by decide)]
    | ⟨1, _⟩ => show 0 = if (1 : Nat) = 1 then 0 else k.val; rw [if_pos rfl]
  · refine broadcastInDim_apply _ _ _ (ix2 e (0 : Fin 1)) (ix1 e) ?_
    intro a
    match a with
    | ⟨0, _⟩ => show e.val = if (3300000 : Nat) = 1 then 0 else e.val; rw [if_neg (by decide)]

/-- The reference's coefficients copied along sixty-four columns, at `(e, f)`: the coefficient of edge `e`. -/
theorem cols64_apply (e : Fin 3300000) (f : Fin 64) :
    val_main_v46 (F := Ideal) a1 a2 (ix2 e f) = val_main_v35 (F := Ideal) a1 a2 (ix1 e) := by
  rw [val_main_v46_apply, val_main_v45_apply]
  exact congrArg _ (funext fun a => match a with | ⟨0, _⟩ => Fin.ext rfl)

/-- The kernel side's zero array `[100000, 5]`. -/
theorem zeros5_apply (i : Cert.KernelIdeal.S100000x5.Idx) :
    broadcastInDim Cert.KernelIdeal.S100000x5 ![] Cert.KernelIdeal.Facts₀.bcast_S_S100000x5 (constant (F := Ideal) Cert.KernelIdeal.S_ FTy.f32 0#32) i = 0 := by
  refine (broadcastInDim_apply _ _ _ i (fun a => a.elim0) (fun a => a.elim0)).trans ?_
  exact Ideal.ofBits_zero_f32

/-- The reference's zero array `[100000, 64]`. -/
theorem zeros64_apply (i : S100000x64.Idx) : val_main_v48 (F := Ideal) i = 0 := by
  rw [val_main_v48_apply, val_main_cst_10_apply]
  exact Ideal.ofBits_zero_f32

/-- The zero the reference cuts at. -/
theorem cut_apply (i : S100000x64.Idx) : val_main_call2_v0 (F := Ideal) i = 0 := by
  rw [val_main_call2_v0_apply, val_main_call2_cst_apply]
  exact Ideal.ofBits_zero_f32

/-- The reference's first bias copied along the rows. -/
theorem bias64_apply (r : Fin 100000) (c : Fin 64) : val_main_v52 (F := Ideal) a6 (ix2 r c) = a6 (ix1 c) := by
  rw [val_main_v52_apply, val_main_v51_apply]
  exact congrArg _ (funext fun a => match a with | ⟨0, _⟩ => Fin.ext rfl)

/-- The reference's product of the features with the transposed first weight, at `(r, c)`. -/
theorem prod1_apply (r : Fin 100000) (c : Fin 64) :
    val_main_v37 (F := Ideal) a0 a5 (ix2 r c) = ∑ k : Fin 5, a0 (ix2 r k) * val_main_v36 (F := Ideal) a5 (ix2 k c) := by
  rw [val_main_v37_apply]
  refine Finset.sum_congr rfl fun k _ => ?_
  have el : lidx_main_v37 (ix2 r c) k = ix2 r k := funext fun a => match a with
    | ⟨0, _⟩ => Fin.ext rfl
    | ⟨1, _⟩ => Fin.ext rfl
  have er : ridx_main_v37 (ix2 r c) k = ix2 k c := funext fun a => match a with
    | ⟨0, _⟩ => Fin.ext rfl
    | ⟨1, _⟩ => Fin.ext rfl
  rw [el, er]

/-- The kernel side's zero bias. -/
theorem zeroBias_apply (i : Cert.KernelIdeal.S4.Idx) : Cert.KernelIdeal.KSpec.zeroBias i = 0 := by
  unfold Cert.KernelIdeal.KSpec.zeroBias
  refine (broadcastInDim_apply _ _ _ i (fun a => a.elim0) (fun a => a.elim0)).trans ?_
  exact Ideal.ofBits_zero_f32

/-! ## The first layer -/

/-- The first dense layer of the aggregated features is the reference's hidden layer. -/
theorem layer1_eq (h0 : ∀ i, IsReal (a0 i)) (h2 : ∀ i, IsReal (a2 i)) (h5 : ∀ i, IsReal (a5 i)) :
    Cert.Spec.lin0
        (Cert.KernelIdeal.KSpec.agg a0 (val_main_v3 (F := Ideal) a1) (val_main_v6 (F := Ideal) a1) (val_main_v35 (F := Ideal) a1 a2))
        (val_main_v36 (F := Ideal) a5) a6
      = val_main_v54 (F := Ideal) a0 a1 a2 a5 a6 := by
  have hW : ∀ i, IsReal (val_main_v36 (F := Ideal) a5 i) := fun i => by rw [val_main_v36_apply]; exact h5 _
  have key := Cert.Algebra.layer1
    Cert.KernelIdeal.gather_S100000x5_S3300000x1_S3300000x5_1_0_n_n_0_1_15
    gather_S100000x64_S3300000x1_S3300000x64_1_0_n_n_0_1_164
    Cert.KernelIdeal.scatter_S100000x5_S3300000x1_S3300000x5_1_0_0_1
    scatter_S100000x64_S3300000x1_S3300000x64_1_0_0_1
    ⟨rfl, rfl, rfl, rfl, rfl, rfl⟩ ⟨rfl, rfl, rfl, rfl, rfl, rfl⟩ ⟨rfl, rfl, rfl, rfl⟩ ⟨rfl, rfl, rfl, rfl⟩
    a0 h0 (val_main_v36 (F := Ideal) a5) hW a6 (val_main_v43 (F := Ideal) a1) (val_main_v49 (F := Ideal) a1)
    (fun e => val_main_v35 (F := Ideal) a1 a2 (ix1 e)) (fun e => Cert.Finite.coeff_isReal a1 a2 h2 (ix1 e))
    (Cert.KernelIdeal.KSpec.cols5 (val_main_v35 (F := Ideal) a1 a2)) (fun e k => cols5_apply _ e k)
    (val_main_v46 (F := Ideal) a1 a2) (fun e f => cols64_apply a1 a2 e f)
    (broadcastInDim Cert.KernelIdeal.S100000x5 ![] Cert.KernelIdeal.Facts₀.bcast_S_S100000x5 (constant (F := Ideal) Cert.KernelIdeal.S_ FTy.f32 0#32)) zeros5_apply
    (val_main_v48 (F := Ideal)) zeros64_apply
    (val_main_v37 (F := Ideal) a0 a5) (fun r c => prod1_apply a0 a5 r c)
    (val_main_call2_v0 (F := Ideal)) cut_apply
    (val_main_v52 (F := Ideal) a6) (fun r c => bias64_apply a6 r c)
  unfold Cert.KernelIdeal.KSpec.agg
  rw [Cert.RMatch.col_dst1, Cert.RMatch.wrap_src1]
  unfold val_main_v54 val_main_v53 val_main_v50 val_main_v47 val_main_v44
  exact key

/-! ## The second layer -/

/-- The second dense layer, with its zero bias, of the hidden features is the reference's second product. -/
theorem layer2_eq :
    Cert.Spec.lin1 (val_main_v54 (F := Ideal) a0 a1 a2 a5 a6) (val_main_v81 (F := Ideal) a7) Cert.KernelIdeal.KSpec.zeroBias
      = val_main_v82 (F := Ideal) a0 a1 a2 a5 a6 a7 := by
  funext j
  obtain ⟨r, c, rfl⟩ : ∃ (r : Fin 100000) (c : Fin 4), j = ix2 r c := ⟨j 0, j 1, eq_ix2 j⟩
  rw [Cert.Spec.lin1_ix2, val_main_v82_apply]
  unfold Cert.Spec.lin1At
  rw [zeroBias_apply, add_zero]
  refine Finset.sum_congr rfl fun k _ => ?_
  have el : lidx_main_v82 (ix2 r c) k = ix2 r k := funext fun a => match a with
    | ⟨0, _⟩ => Fin.ext rfl
    | ⟨1, _⟩ => Fin.ext rfl
  have er : ridx_main_v82 (ix2 r c) k = ix2 k c := funext fun a => match a with
    | ⟨0, _⟩ => Fin.ext rfl
    | ⟨1, _⟩ => Fin.ext rfl
  rw [el, er]

/-! ## The result -/

/-- The two transposed weights are the reference's. -/
theorem wt1_eq : transpose Cert.KernelIdeal.S5x64 [1, 0] a5 Cert.KernelIdeal.Facts₀.transposes_S64x5_S5x64_1_0 = val_main_v36 (F := Ideal) a5 := rfl
theorem wt2_eq : transpose Cert.KernelIdeal.S64x4 [1, 0] a7 Cert.KernelIdeal.Facts₀.transposes_S4x64_S64x4_1_0 = val_main_v81 (F := Ideal) a7 := rfl

/-- The kernel program's result, as a function of the arguments, is the reference's. -/
theorem kres_eq (h0 : ∀ i, IsReal (a0 i)) (h2 : ∀ i, IsReal (a2 i)) (h5 : ∀ i, IsReal (a5 i)) :
    Cert.KernelIdeal.KSpec.kres a0 (val_main_v3 (F := Ideal) a1) (val_main_v6 (F := Ideal) a1) (val_main_v19 (F := Ideal) a1 a2)
        (val_main_v9 (F := Ideal) a2) a5 a6 a7 a8
      = val_main_v98 (F := Ideal) a0 a1 a2 a5 a6 a7 a8 := by
  unfold Cert.KernelIdeal.KSpec.kres
  rw [Cert.RMatch.coeff1, wt1_eq, wt2_eq, layer1_eq a0 a1 a2 a5 a6 h0 h2 h5, layer2_eq]
  unfold Cert.KernelIdeal.KSpec.out
  rw [Cert.RMatch.col_dst2, Cert.RMatch.wrap_src2, ← Cert.RMatch.coeff2, Cert.RMatch.cols4_eq]
  unfold val_main_v98 val_main_v95 val_main_v92 val_main_v89 val_main_v97 val_main_v96 val_main_v93 val_main_cst_22
  generalize val_main_v82 (F := Ideal) a0 a1 a2 a5 a6 a7 = H
  generalize val_main_v88 (F := Ideal) a1 = S
  generalize val_main_v94 (F := Ideal) a1 = T
  generalize val_main_v91 (F := Ideal) a1 a2 = N
  rfl

end Cert.Bridge

end
-- ==== Proof.lean ====
/-
  The certificate of a two-layer graph convolution. Each layer is `out[i] = ∑ over edges (j → i) of
  d_i^(-1/2) · w_ij · d_j^(-1/2) · (x_j · Wᵀ) + b`, with one self-loop of weight one per node and `d` the weighted
  in-degrees. The kernel program computes the first layer in the other order — it accumulates the scaled feature rows
  `x_j` over the edges first and applies `W₁ᵀ`, the bias and the cut at zero afterwards, in a dense tiled layer —
  and the second layer in the reference's order, its dense tiled layer carrying a zero bias. Over finite reals the
  two orders agree because the accumulation is linear (Proof/Algebra.lean); the inputs are finite by the precondition and
  the edge coefficients by their construction (Proof/Finite.lean). The kernel program's result is read off its run
  boundary by boundary (Proof/KernelRun.lean, Proof/KFold.lean, the two dense layers' arrays in Proof/Region0.lean and
  Proof/Region1.lean), the reference's off its run, and the two functions of the arguments are identified in
  Proof/RMatch.lean and Proof/Bridge.lean. The idealization rewrote nothing, so `preserves` is trivial.
-/
import proofs.«408969_j82918638616893_3_alg».proof.Defs
import proofs.«408969_j82918638616893_3_alg».proof.Proof.Gen.Kernel
import proofs.«408969_j82918638616893_3_alg».proof.Proof.Gen.Kernel.Skeleton
import proofs.«408969_j82918638616893_3_alg».proof.Proof.Gen.Kernel.Launch
import proofs.«408969_j82918638616893_3_alg».proof.Proof.Gen.Kernel.Points
import proofs.«408969_j82918638616893_3_alg».proof.Proof.Gen.Kernel.Frame
import proofs.«408969_j82918638616893_3_alg».proof.Proof.Gen.KernelIdeal
import proofs.«408969_j82918638616893_3_alg».proof.Proof.Gen.KernelIdeal.Skeleton
import proofs.«408969_j82918638616893_3_alg».proof.Proof.Gen.KernelIdeal.Launch
import proofs.«408969_j82918638616893_3_alg».proof.Proof.Gen.KernelIdeal.Points
import proofs.«408969_j82918638616893_3_alg».proof.Proof.Gen.KernelIdeal.Frame
import proofs.«408969_j82918638616893_3_alg».proof.Proof.Gen.ReferenceIdeal
import proofs.«408969_j82918638616893_3_alg».proof.Proof.Gen.Pre_finite_inputs
import proofs.«408969_j82918638616893_3_alg».proof.Proof.Gen.ReferenceIdeal.Run
import proofs.«408969_j82918638616893_3_alg».proof.Proof.Gen.ReferenceIdeal.Read
import proofs.«408969_j82918638616893_3_alg».proof.Proof.KernelRun
import proofs.«408969_j82918638616893_3_alg».proof.Proof.KFold
import proofs.«408969_j82918638616893_3_alg».proof.Proof.Finite
import proofs.«408969_j82918638616893_3_alg».proof.Proof.Bridge
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the idealized reference: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end with the same result: the reference's last
    stage of the common arguments. -/
theorem algebraic : Cert.algebraic_KernelIdeal_ReferenceIdeal := by
  intro m ρ m' ρ' hpre hagree
  refine ⟨fun c => Cert.ReferenceIdeal.Read.val_main_v98 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · refine (θ_run Cert.KernelIdeal.defs _ _).mono (fun r h c => ⟨(h c).1.trans ?_, (h c).2⟩)
      (Cert.KernelIdeal.RunValue.run_value (F := Ideal) m ρ)
    obtain ⟨f0, f2, f5, -, -, -⟩ := Cert.Finite.finite_of_pre _ _ _ _ _ _ _ _ _ (hpre c)
    exact (Cert.KernelIdeal.Fold.result_eq m ρ c).trans (Cert.Bridge.kres_eq _ _ _ _ _ _ _ f0 f2 f5)
  · refine (θ_run Cert.ReferenceIdeal.defs _ _).mono (fun r h c => ⟨(h c).1.trans ?_, (h c).2⟩)
      (Cert.ReferenceIdeal.Value.run (F := Ideal) m' ρ')
    obtain ⟨e0, e1, e2, -, -, e5, e6, e7, e8⟩ := hagree c
    rw [Cert.ReferenceIdeal.Read.val_main_v98_eq, e0, e1, e2, e5, e6, e7, e8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
